-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x11008 : Shape := ⟨2, ![512, 11008]⟩
abbrev S32x11008 : Shape := ⟨2, ![32, 11008]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S512x11008 32) (main_arg2 : FVec F S32x11008 .f32) (main_arg3 : IVec S32x11008 32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S512x11008 : Shape := ⟨2, ![512, 11008]⟩
abbrev S32x11008 : Shape := ⟨2, ![32, 11008]⟩
abbrev S11008 : Shape := ⟨1, ![11008]⟩
abbrev S_ : Shape := ⟨0, ![]⟩
abbrev S512x11264 : Shape := ⟨2, ![512, 11264]⟩
abbrev S32x11264 : Shape := ⟨2, ![32, 11264]⟩
abbrev S11264 : Shape := ⟨1, ![11264]⟩
abbrev S1x11264 : Shape := ⟨2, ![1, 11264]⟩
abbrev S8192x4096 : Shape := ⟨2, ![8192, 4096]⟩
abbrev S4096x11264 : Shape := ⟨2, ![4096, 11264]⟩
abbrev S128x512 : Shape := ⟨2, ![128, 512]⟩
abbrev S8x512 : Shape := ⟨2, ![8, 512]⟩
abbrev S1024x512 : Shape := ⟨2, ![1024, 512]⟩
abbrev S1x8x1 : Shape := ⟨3, ![1, 8, 1]⟩
abbrev S128x1x512 : Shape := ⟨3, ![128, 1, 512]⟩
abbrev S128x8x512 : Shape := ⟨3, ![128, 8, 512]⟩
abbrev S8x1x512 : Shape := ⟨3, ![8, 1, 512]⟩
abbrev S8x128x512 : Shape := ⟨3, ![8, 128, 512]⟩
abbrev S8192x11008 : Shape := ⟨2, ![8192, 11008]⟩
abbrev S1024x2048 : Shape := ⟨2, ![1024, 2048]⟩
abbrev S2048x1408 : Shape := ⟨2, ![2048, 1408]⟩
abbrev S1x1408 : Shape := ⟨2, ![1, 1408]⟩
abbrev S1024x1408 : Shape := ⟨2, ![1024, 1408]⟩
abbrev S4x2048x11008 : Shape := ⟨3, ![4, 2048, 11008]⟩

abbrev nBuf : Space → Nat
  | .hbm => 23
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S32x11008, .f32⟩
  | .hbm, ⟨3, _⟩ => ⟨S32x11008, .i32⟩
  | .hbm, ⟨4, _⟩ => ⟨S11008, .f32⟩
  | .hbm, ⟨5, _⟩ => ⟨S_, .i32⟩
  | .hbm, ⟨6, _⟩ => ⟨S_, .i32⟩
  | .hbm, ⟨7, _⟩ => ⟨S512x11264, .i32⟩
  | .hbm, ⟨8, _⟩ => ⟨S_, .i32⟩
  | .hbm, ⟨9, _⟩ => ⟨S_, .f32⟩
  | .hbm, ⟨10, _⟩ => ⟨S32x11264, .f32⟩
  | .hbm, ⟨11, _⟩ => ⟨S_, .i32⟩
  | .hbm, ⟨12, _⟩ => ⟨S_, .i32⟩
  | .hbm, ⟨13, _⟩ => ⟨S32x11264, .i32⟩
  | .hbm, ⟨14, _⟩ => ⟨S_, .i32⟩
  | .hbm, ⟨15, _⟩ => ⟨S_, .f32⟩
  | .hbm, ⟨16, _⟩ => ⟨S11264, .f32⟩
  | .hbm, ⟨17, _⟩ => ⟨S1x11264, .f32⟩
  | .hbm, ⟨18, _⟩ => ⟨S8192x4096, .f32⟩
  | .hbm, ⟨19, _⟩ => ⟨S8192x4096, .bf16⟩
  | .hbm, ⟨20, _⟩ => ⟨S4096x11264, .bf16⟩
  | .hbm, ⟨21, _⟩ => ⟨S8192x11008, .f32⟩
  | .hbm, ⟨22, _⟩ => ⟨S4x2048x11008, .f32⟩
  | .local _ .vmem, ⟨0, _⟩ => ⟨S128x512, .i32⟩
  | .local _ .vmem, ⟨1, _⟩ => ⟨S128x512, .i32⟩
  | .local _ .vmem, ⟨2, _⟩ => ⟨S8x512, .f32⟩
  | .local _ .vmem, ⟨3, _⟩ => ⟨S8x512, .f32⟩
  | .local _ .vmem, ⟨4, _⟩ => ⟨S8x512, .i32⟩
  | .local _ .vmem, ⟨5, _⟩ => ⟨S8x512, .i32⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | .local _ .vmem, ⟨9, _⟩ => ⟨S1024x2048, .bf16⟩
  | .local _ .vmem, ⟨10, _⟩ => ⟨S2048x1408, .bf16⟩
  | .local _ .vmem, ⟨11, _⟩ => ⟨S2048x1408, .bf16⟩
  | .local _ .vmem, ⟨12, _⟩ => ⟨S1x1408, .f32⟩
  | .local _ .vmem, ⟨13, _⟩ => ⟨S1x1408, .f32⟩
  | .local _ .vmem, ⟨14, _⟩ => ⟨S1024x1408, .f32⟩
  | .local _ .vmem, ⟨15, _⟩ => ⟨S1024x1408, .f32⟩
  | .local _ .vmem, ⟨16, _⟩ => ⟨S1024x1408, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_c_2 : Ref sig .tc := ⟨.hbm, 14, rfl⟩
abbrev main_call3_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 8, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  pads_S512x11008_S512x11264_000_02560 : S512x11008.Pads (![0, 0] : Fin 2 → Nat) ![0, 256] ![0, 0] S512x11264
  h_S_ : 0 < S_.numel
  pads_S32x11008_S32x11264_000_02560 : S32x11008.Pads (![0, 0] : Fin 2 → Nat) ![0, 256] ![0, 0] S32x11264
  pads_S11008_S11264_02560 : S11008.Pads (![0] : Fin 1 → Nat) ![256] ![0] S11264
  shapeCasts_S11264_S1x11264 : S11264.ShapeCasts S1x11264
  shapeCasts_S4x2048x4096_S8192x4096 : S4x2048x4096.ShapeCasts S8192x4096
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  iota_S1x8x1_d1_w32 : S1x8x1.Iotas .tc 32 [1]
  shapeCasts_S128x512_S128x1x512 : S128x512.ShapeCasts S128x1x512
  broadcasts_S128x1x512_S128x8x512 : S128x1x512.Broadcasts S128x8x512
  broadcasts_S1x8x1_S128x8x512 : S1x8x1.Broadcasts S128x8x512
  shapeCasts_S128x8x512_S1024x512 : S128x8x512.ShapeCasts S1024x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S8x512_S8x1x512 : S8x512.ShapeCasts S8x1x512
  shapeCasts_S8x1x512_S8x1x512 : S8x1x512.ShapeCasts S8x1x512
  broadcasts_S8x1x512_S8x128x512 : S8x1x512.Broadcasts S8x128x512
  shapeCasts_S8x128x512_S1024x512 : S8x128x512.ShapeCasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S1024x1408_S1024x1408_0_0 : ∀ a, (![0, 0] : Fin 2 → Nat) a + S1024x1408.size a ≤ S1024x1408.size a
  h_S1024x1408 : 0 < S1024x1408.numel
  shapeCasts_S1024x1408_S1024x1408 : S1024x1408.ShapeCasts S1024x1408
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1408_S2048x1408_0_0 : ∀ a, (![0, 0] : Fin 2 → Nat) a + S2048x1408.size a ≤ S2048x1408.size a
  h_S2048x1408 : 0 < S2048x1408.numel
  shapeCasts_S2048x1408_S2048x1408 : S2048x1408.ShapeCasts S2048x1408
  inb_S1x1408_S1x1408_0_0 : ∀ a, (![0, 0] : Fin 2 → Nat) a + S1x1408.size a ≤ S1x1408.size a
  h_S1x1408 : 0 < S1x1408.numel
  shapeCasts_S1x1408_S1x1408 : S1x1408.ShapeCasts S1x1408
  broadcasts_S1x1408_S1024x1408 : S1x1408.Broadcasts S1024x1408
  shapeCasts_S8192x11008_S4x2048x11008 : S8192x11008.ShapeCasts S4x2048x11008
  dot_S1024x2048_S2048x1408_S1024x1408_1_0_0_1_n_n_wf : DotDims.WF S1024x2048 S2048x1408 S1024x1408 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x11264.size a
  hwx0_0 : ∀ i : grid0.Coords, EltTy.bits .i32 = 32 ∨ (Rect.block (s := S512x11264) S128x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S32x11264.size a
  hwx0_1 : ∀ i : grid0.Coords, EltTy.bits .f32 = 32 ∨ (Rect.block (s := S32x11264) S8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S32x11264.size a
  hwx0_2 : ∀ i : grid0.Coords, EltTy.bits .i32 = 32 ∨ (Rect.block (s := S32x11264) S8x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x11264.size a
  hwx0_3 : ∀ i : grid0.Coords, EltTy.bits .bf16 = 32 ∨ (Rect.block (s := S4096x11264) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x4096.size a
  hwx1_0 : ∀ i : grid1.Coords, EltTy.bits .bf16 = 32 ∨ (Rect.block (s := S8192x4096) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1408.size a ≤ S4096x11264.size a
  hwx1_1 : ∀ i : grid1.Coords, EltTy.bits .bf16 = 32 ∨ (Rect.block (s := S4096x11264) S2048x1408.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1408.size a ≤ S1x11264.size a
  hwx1_2 : ∀ i : grid1.Coords, EltTy.bits .f32 = 32 ∨ (Rect.block (s := S1x11264) S1x1408.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x1408.size a < S8192x11008.size a
  hwx1_3 : ∀ i : grid1.Coords, EltTy.bits .f32 = 32 ∨ (Rect.unit (s := S8192x11008) (fun a => cc1_transform_3 i a * S1024x1408.size a) (fun a => (Pipeline.Clip.of (cc1_transform_3 i a) (S1024x1408.size a) (S8192x11008.size a)).extent (S1024x1408.size a)) fun a => Pipeline.Clip.inb (Pipeline.Clip.ok_of (hstart1_3 i a))).WholeWords (EltTy.packing .f32)
  hwxs1_3 : ∀ i : grid1.Coords, EltTy.bits .f32 = 32 ∨ (Rect.unit (s := S1024x1408) (fun _ => 0) (fun a => (Pipeline.Clip.of (cc1_transform_3 i a) (S1024x1408.size a) (S8192x11008.size a)).extent (S1024x1408.size a)) fun a => (Nat.zero_add _).trans_le (Pipeline.Clip.extent_le (Pipeline.Clip.ok_of (hstart1_3 i a)))).WholeWords (EltTy.packing .f32)

variable [Facts₀]

def dot_S1024x2048_S2048x1408_S1024x1408_1_0_0_1_n_n : DotDims S1024x2048 S2048x1408 S1024x1408 where
  lhsContracting := [1]
  rhsContracting := [0]
  lhsNonContracting := [0]
  rhsNonContracting := [1]
  lhsBatch := []
  rhsBatch := []
  wf := dot_S1024x2048_S2048x1408_S1024x1408_1_0_0_1_n_n_wf

abbrev win0_0 : Pipeline.Window sig grid0 :=
  Pipeline.Window.ofSpec (Memref.whole main_v0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2048x1408.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1408.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpecClip (Memref.whole main_v8) S1024x1408.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S512x11008 : Shape := ⟨2, ![512, 11008]⟩
abbrev S32x11008 : Shape := ⟨2, ![32, 11008]⟩
abbrev S11008 : Shape := ⟨1, ![11008]⟩
abbrev S8 : Shape := ⟨1, ![8]⟩
abbrev S_ : Shape := ⟨0, ![]⟩
abbrev S1x8x1 : Shape := ⟨3, ![1, 8, 1]⟩
abbrev S512x1x11008 : Shape := ⟨3, ![512, 1, 11008]⟩
abbrev S512x8x11008 : Shape := ⟨3, ![512, 8, 11008]⟩
abbrev S4096x11008 : Shape := ⟨2, ![4096, 11008]⟩
abbrev S32x128x11008 : Shape := ⟨3, ![32, 128, 11008]⟩
abbrev S4x2048x11008 : Shape := ⟨3, ![4, 2048, 11008]⟩
abbrev S1x1x11008 : Shape := ⟨3, ![1, 1, 11008]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S32x11008, .f32⟩
  | .hbm, ⟨3, _⟩ => ⟨S32x11008, .i32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1x8x1, .i32⟩
  | .hbm, ⟨10, _⟩ => ⟨S512x1x11008, .i32⟩
  | .hbm, ⟨11, _⟩ => ⟨S512x8x11008, .i32⟩
  | .hbm, ⟨12, _⟩ => ⟨S512x8x11008, .i32⟩
  | .hbm, ⟨13, _⟩ => ⟨S512x8x11008, .i32⟩
  | .hbm, ⟨14, _⟩ => ⟨S_, .i32⟩
  | .hbm, ⟨15, _⟩ => ⟨S512x8x11008, .i32⟩
  | .hbm, ⟨16, _⟩ => ⟨S512x8x11008, .i32⟩
  | .hbm, ⟨17, _⟩ => ⟨S4096x11008, .i32⟩
  | .hbm, ⟨18, _⟩ => ⟨S4096x11008, .f32⟩
  | .hbm, ⟨19, _⟩ => ⟨S32x11008, .f32⟩
  | .hbm, ⟨20, _⟩ => ⟨S32x128x11008, .f32⟩
  | .hbm, ⟨21, _⟩ => ⟨S4096x11008, .f32⟩
  | .hbm, ⟨22, _⟩ => ⟨S32x128x11008, .f32⟩
  | .hbm, ⟨23, _⟩ => ⟨S4096x11008, .f32⟩
  | .hbm, ⟨24, _⟩ => ⟨S4096x11008, .f32⟩
  | .hbm, ⟨25, _⟩ => ⟨S4096x11008, .f32⟩
  | .hbm, ⟨26, _⟩ => ⟨S4x2048x11008, .f32⟩
  | .hbm, ⟨27, _⟩ => ⟨S1x1x11008, .f32⟩
  | .hbm, ⟨28, _⟩ => ⟨S4x2048x11008, .f32⟩
  | .hbm, ⟨29, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8x1_1 : S8.BroadcastsInDim S1x8x1 (![1] : Fin 1 → Fin S1x8x1.rank)
  bcast_S512x11008_S512x1x11008_0_2 : S512x11008.BroadcastsInDim S512x1x11008 (![0, 2] : Fin 2 → Fin S512x1x11008.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S4096x11008_S4x2048x11008_2_0_01_1_n_n_wf : DotDims.WF S4x2048x4096 S4096x11008 S4x2048x11008 [2] [0] [0, 1] [1] [] []

variable [Facts₀]

def dot_S4x2048x4096_S4096x11008_S4x2048x11008_2_0_01_1_n_n : DotDims S4x2048x4096 S4096x11008 S4x2048x11008 where
  lhsContracting := [2]
  rhsContracting := [0]
  lhsNonContracting := [0, 1]
  rhsNonContracting := [1]
  lhsBatch := []
  rhsBatch := []
  wf := dot_S4x2048x4096_S4096x11008_S4x2048x11008_2_0_01_1_n_n_wf

class Facts : Prop extends Facts₀ where

variable [Facts]
-- ==== Proof.KDequantData.lean ====
/-
  The first kernel call: one tile of the dequantized weight matrix per grid point.

  The call's grid is 4 × 22; at point t it reads a 128 × 512 tile of the packed words, and the 8 × 512 tiles of the
  scales and of the zero points that belong to the same 1024 rows, and writes the 1024 × 512 tile
      w[8·a + s, n] = (float ((q[a, n] >>ₛ 4·s) &&& 15) − float z[(8·a + s) / 128, n]) · sc[(8·a + s) / 128, n]
  (cast to the narrow float format, the identity on the extended reals).  The tiles are stated here over the contents
  `V` the buffers hold when the call is entered: what each window's block is, what the body leaves in the output's
  staging buffer (the payload of its one store), and the record of these the pipeline rule takes.
-/
import proofs.«423540_j24867860644059_3_alg».proof.Proof.Gen.Kernel.Launch
import proofs.«423540_j24867860644059_3_alg».proof.Proof.Gen.Kernel.Skeleton
import proofs.«423540_j24867860644059_3_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.Kernel.Dq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of packed words at point `t`. -/
abbrev qw (c : Dev nD) (t : Fin cfg0.N) : Vec F S128x512 .i32 := iblk V c 0 t
/-- The tile of scales at point `t`. -/
abbrev sc (c : Dev nD) (t : Fin cfg0.N) : Vec F S8x512 .f32 := iblk V c 1 t
/-- The tile of zero points at point `t`. -/
abbrev qz (c : Dev nD) (t : Fin cfg0.N) : Vec F S8x512 .i32 := iblk V c 2 t

/-- The dequantized tile point `t` writes back: the body's one stored value, of the three tiles it reads. -/
def tile (c : Dev nD) (t : Fin cfg0.N) : Vec F S1024x512 .bf16 := k0_pay1 (qw V c t) (sc V c t) (qz V c t)

/-- The record of the call on core `c`: the arrays as found; after the body each input's staging buffer still at
    its block and the output's at the dequantized tile; between points only the scoped buffers the call does not
    use and the generator register; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => tile V c t
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = tile V c t := by dsimp only [dat]

end Cert.Kernel.Dq

end
-- ==== Proof.KDequantBody.lean ====
/-
  The first kernel call's body, run at a grid point: from the three input tiles in their staging buffers it leaves
  the dequantized tile in the output's staging buffer and everything else as it was.
-/
import proofs.«423540_j24867860644059_3_alg».proof.Proof.KDequantData
import Idealize.ShloMosaic.Lib.Pipeline.Value

set_option maxRecDepth 16384

noncomputable section

namespace Cert.Kernel.Dq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks

An input window is never idle and its block is not cut; the body leaves it in place.  So at every point, fetched
there or not (unfetched, the block index has not moved), its current staging buffer holds its block. -/

theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body's one store

The store's rectangle is the whole 1024 × 512 buffer at zero offsets: it covers every index, and what it leaves
is its payload. -/

/-- The offsets of every access of the body are zero. -/
theorem off_zero : (![0, 0] : Fin 2 → Nat) = fun _ => 0 := funext fun a => by fin_cases a <;> rfl

/-- The rectangle of the store: the whole output tile. -/
abbrev rOut : Rect S1024x512 := Rect.unit (s := S1024x512) ![0, 0] S1024x512.size inb_S1024x512_S1024x512_0_0

/-- The one store covers the buffer. -/
theorem cover_out (p : Vec F S1024x512 .bf16) (y : S1024x512.Idx) :
    ∃ pc ∈ ([⟨rOut, p⟩] : List (View.Piece (Elt F) S1024x512 .bf16)), y ∈ pc.1.set :=
  ⟨_, List.mem_singleton_self _, View.mem_set_unit_zero (S := S1024x512) off_zero inb_S1024x512_S1024x512_0_0 y⟩

/-! ## The body's triple -/

set_option maxHeartbeats 1000000 in
/-- The kernel on whole staging memrefs, the inputs' at contents `x0`, `x1`, `x2` and the output's at anything, runs
    to the continuation holding the inputs' as they were and the output's at the payload of the three inputs: three
    whole-buffer loads read the contents, and the one whole-buffer store leaves its payload. -/
theorem sound_kernel (c : Dev nD) (E : Set ℕ) (i : grid0.Coords)
    (arg2 : Memref sig .tc .vmem S128x512 .i32) (harg2 : arg2.IsWhole)
    (arg3 : Memref sig .tc .vmem S8x512 .f32) (harg3 : arg3.IsWhole)
    (arg4 : Memref sig .tc .vmem S8x512 .i32) (harg4 : arg4.IsWhole)
    (arg5 : Memref sig .tc .vmem S1024x512 .bf16) (harg5 : arg5.IsWhole)
    (x0 : Vec F S128x512 .i32) (x1 : Vec F S8x512 .f32) (x2 : Vec F S8x512 .i32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k0_pay1 x0 x1 x2)) -∗ K ⟨⟩))
      ⊢ wp frame (wpE (defs₀ (F := F)) Variants.none c none) E
          (cc0__dequant_kernel i arg2 harg2 arg3 harg3 arg4 harg4 arg5 harg5) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- what the buffer reads after the covering store is the store's payload, of what the three loads read,
  rw [View.read_writes_eq_canon _ _ _ (cover_out _),
    View.canon_unit_zero (S := S1024x512) off_zero inb_S1024x512_S1024x512_0_0]
  -- and a load through the whole buffer reads its contents
  simp only [View.readAt_eq_ld, View.ld_unit_zero (S := S128x512) off_zero inb_S128x512_S128x512_0_0,
    View.ld_unit_zero (S := S8x512) off_zero inb_S8x512_S8x512_0_0]

/-! ## The body obligation, at a generic point -/

/-- What the body is called with at point `t`: the invariant, the core's dues, and each window's current staging
    buffer at what it then holds, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' staging buffers hold their blocks, so the kernel's triple applies at the
    three tiles; the invariant and the core's dues are the same before and after, and pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  unfold tile
  iintro ⟨HΦ, Ho, ⟨%d0, H0⟩, ⟨%d1, H1⟩, ⟨%d2, H2⟩, ⟨%d3, H3⟩⟩
  iapply (sound_kernel c Set.univ _ _ _ _ _ _ _ _ _ (qw V c t) (sc V c t) (qz V c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation for the body, at every grid point. -/
theorem body_obligation (c : Dev nD) : BodyObligation (dat (F := F) V c) (defs₀ (F := F)) Variants.none () Set.univ := fun t => by
  rw [bigSep_W0, bigSep_W0]
  exact sound_body V c t

end Cert.Kernel.Dq

end
-- ==== Proof.KMatmulData.lean ====
/-
  The second kernel call: the product of the activations with the dequantized weights, accumulated over two
  halves of the contracted axis, plus the bias.

  The call's grid is 8 × 8 × 2, the last coordinate k the half of the contracted axis.  At a point with k = 0 the
  body clears its accumulator (a buffer it keeps from point to point) and adds the product of the 1024 × 2048
  tile of activations with the 2048 × 1408 tile of weights; at a point with k = 1 it adds the second half's product
  to what the point before left, and writes accumulator + bias row to the output's staging buffer.  The output's
  staging buffer is written only at the points with k = 1, and its last column block runs past the array's last
  column: the write-back keeps the part inside.

  Stated here over the contents `V` the buffers hold when the call is entered: each window's block, the
  accumulator after each point, the tile written back, the invariant between points (the accumulator at its
  contents), and the record of these the pipeline rule takes.
-/
import proofs.«423540_j24867860644059_3_alg».proof.Proof.Gen.Kernel.Launch
import proofs.«423540_j24867860644059_3_alg».proof.Proof.Gen.Kernel.Skeleton
import proofs.«423540_j24867860644059_3_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of activations at point `t`. -/
abbrev xb (c : Dev nD) (t : Fin cfg1.N) : Vec F S1024x2048 .bf16 := iblk V c 0 t
/-- The tile of weights at point `t`. -/
abbrev wb (c : Dev nD) (t : Fin cfg1.N) : Vec F S2048x1408 .bf16 := iblk V c 1 t
/-- The bias row's tile at point `t`. -/
abbrev bb (c : Dev nD) (t : Fin cfg1.N) : Vec F S1x1408 .f32 := iblk V c 2 t

/-- The accumulator after a point that starts a contraction: zero plus that point's product. -/
def half (c : Dev nD) (t : Fin cfg1.N) : Vec F S1024x1408 .f32 := k1_pay2 k1_pay1 (xb V c t) (wb V c t)

/-- The accumulator after point `n`: at an even point (k = 0) the first half's product over zero, at an odd point
    (k = 1) the second half's product over what the point before left. -/
def accAt (c : Dev nD) (n : ℕ) (h : n < cfg1.N) : Vec F S1024x1408 .f32 :=
  if n % 2 = 0 then half V c ⟨n, h⟩
  else k1_pay2 (half V c ⟨n - 1, Nat.lt_of_le_of_lt (Nat.sub_le _ _) h⟩) (xb V c ⟨n, h⟩) (wb V c ⟨n, h⟩)

/-- The tile a point with k = 1 writes to the output's staging buffer: the accumulator plus the bias row. -/
def outTile (c : Dev nD) (t : Fin cfg1.N) : Vec F S1024x1408 .f32 := k1_pay3 (accAt V c t.val t.isLt) (bb V c t)

/-- The accumulator: the call's one scratch operand. -/
abbrev scM : Memref sig .tc .vmem S1024x1408 .f32 := Memref.whole cc1_scratch0

/-- The scoped buffers the call does not touch (the first call's staging buffers), each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The invariant before position `n`: before the first point every scoped buffer at anything; afterwards the
    accumulator at what the point before left in it, the other scoped buffers at anything, and the generator
    register at some state. -/
def PhiS (c : Dev nD) : (n : ℕ) → n ≤ cfg1.N → sProp 𝕄
  | 0, _ => Pipeline.ΦA spec1 c
  | n + 1, hn => iprop(iprop(others (F := F) c ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(others (F := F) c ∗ owns (c : Thread nD τ) scM fullShare (accAt V c n hn)) ∗ (∃ r, prngReg c r)) := rfl

theorem PhiS_pos (c : Dev nD) (n : ℕ) (h : n ≤ cfg1.N) (hz : n ≠ 0) :
    PhiS V c n h = iprop(iprop(others (F := F) c ∗ owns (c : Thread nD τ) scM fullShare (accAt V c (n - 1) (by omega))) ∗ (∃ r, prngReg c r)) := by
  cases n with
  | zero => exact absurd rfl hz
  | succ n => rfl

/-- The record of the call on core `c`: the arrays as found; after the body each input's staging buffer still at
    its block and the output's at accumulator + bias; between points the invariant above; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outTile V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outTile V c t := by dsimp only [dat]

theorem Phi_castSucc (c : Dev nD) (t : Fin cfg1.N) :
    (dat V c).Φ t.castSucc = PhiS V c t.val (Nat.le_of_lt t.isLt) := by
  dsimp only [dat]; simp only [Fin.coe_castSucc]

theorem Phi_succ (c : Dev nD) (t : Fin cfg1.N) :
    (dat V c).Φ t.succ = PhiS V c (t.val + 1) t.isLt := rfl

end Cert.Kernel.Mm

end
-- ==== Proof.KMatmulBody.lean ====
/-
  The second kernel call's body, run at a grid point: at a point that starts a contraction it clears the accumulator
  and adds the first half's product; at a point that ends one it adds the second half's product to what the point
  before left and writes accumulator + bias to the output's staging buffer.
-/
import proofs.«423540_j24867860644059_3_alg».proof.Proof.KMatmulData
import Idealize.ShloMosaic.Lib.Pipeline.Value

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions over the grid, and where the output's window is idle -/

/-- The first conditional's condition (the last coordinate is 0), from the grid coordinates. -/
abbrev cond1 (i : grid1.Coords) : Prop := (Scalar.cmpi .ne (Scalar.extui (Scalar.cmpi .eq (BitVec.ofNat 32 (i 2).val) 0#32)) 0#32) = 1#1
/-- It holds at the even points. -/
theorem hcond1 : ∀ t : Fin cfg1.N, cond1 (grid1.coords t) ↔ t.val % 2 = 0 :=
  (by decide +kernel : ∀ t : Fin grid1.N, cond1 (grid1.coords t) ↔ t.val % 2 = 0)
/-- The second conditional's condition (the last coordinate is 1). -/
abbrev cond2 (i : grid1.Coords) : Prop := k1_cond2 i = 1#1
/-- It holds at the odd points. -/
theorem hcond2 : ∀ t : Fin cfg1.N, cond2 (grid1.coords t) ↔ t.val % 2 = 1 :=
  (by decide +kernel : ∀ t : Fin grid1.N, cond2 (grid1.coords t) ↔ t.val % 2 = 1)

/-- The three inputs' windows are never idle. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- The output's window is idle at the even points, -/
theorem idle_3_even : ∀ t : Fin cfg1.N, t.val % 2 = 0 → cfg1.idle 3 (grid1.coords t) = true := by decide +kernel
/-- live at the odd ones, -/
theorem live_3_odd : ∀ t : Fin cfg1.N, t.val % 2 = 1 → cfg1.idle 3 (grid1.coords t) = false := by decide +kernel
/-- and not written back at the even ones. -/
theorem noflush_3_even (t : Fin cfg1.N) (h : t.val % 2 = 0) : (cfg1.win 3).flush t = false := by
  cases hf : (cfg1.win 3).flush t with
  | false => rfl
  | true => have := (flush1_3 t).mp hf; omega

/-! ## What the call is handed, with the accumulator apart -/

/-- What the call is handed gives the other scoped buffers, the accumulator at some contents, and the generator register. -/
theorem PhiA_in (c : Dev nD) :
    (Pipeline.ΦA spec1 c : sProp 𝕄) ⊢ iprop(iprop(others (F := F) c ∗ (∃ d, owns (c : Thread nD τ) scM fullShare d)) ∗ (∃ r, prngReg c r)) := by
  unfold Pipeline.ΦA; rw [scopedRest1_eq]; simp only [scM, owns_whole]; unfold others
  iintro ⟨⟨H1, H2, H3, H4, H5, H6, H7, H8, HS⟩, Hg⟩
  isplitl [H1 H2 H3 H4 H5 H6 H7 H8 HS]
  · isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iexact HS
  · iexact Hg

/-- And those give back what the call was handed. -/
theorem PhiA_out (c : Dev nD) :
    iprop(iprop(others (F := F) c ∗ (∃ d, owns (c : Thread nD τ) scM fullShare d)) ∗ (∃ r, prngReg c r)) ⊢ (Pipeline.ΦA spec1 c : sProp 𝕄) := by
  unfold Pipeline.ΦA; rw [scopedRest1_eq]; simp only [scM, owns_whole]; unfold others
  iintro ⟨⟨⟨H1, H2, H3, H4, H5, H6, H7, H8⟩, HS⟩, Hg⟩
  isplitl [H1 H2 H3 H4 H5 H6 H7 H8 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  · iexact Hg

/-! ## Each input's staging buffer holds its block at every point -/

/-- The activations' buffer holds the tile, fetched there or not. -/
theorem before_0 (c : Dev nD) (t : Fin cfg1.N) (d) : (dat (F := F) V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The weights' buffer likewise. -/
theorem before_1 (c : Dev nD) (t : Fin cfg1.N) (d) : (dat (F := F) V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- The bias row's buffer likewise: at an odd point it is not fetched and its block index has not moved. -/
theorem before_2 (c : Dev nD) (t : Fin cfg1.N) (d) : (dat (F := F) V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body's two runs, over any whole staging buffers -/

/-- A whole-buffer access starts at offset zero along both axes. -/
theorem hz2 : (![0, 0] : Fin 2 → ℕ) = fun _ => 0 := by funext a; fin_cases a <;> rfl

set_option maxHeartbeats 1000000 in
/-- The body at a point that starts a contraction (first conditional taken, second not): from the three inputs'
    buffers at their tiles, the output's buffer at what it holds and the accumulator at anything, it runs to the
    same with the accumulator at zero plus the product of the two tiles: the accumulator is cleared, read back,
    and stored whole. -/
theorem run_even (c : Dev nD) (i : grid1.Coords)
    (arg3 : Memref sig .tc .vmem S1024x2048 .bf16) (harg3 : arg3.IsWhole) (arg4 : Memref sig .tc .vmem S2048x1408 .bf16) (harg4 : arg4.IsWhole)
    (arg5 : Memref sig .tc .vmem S1x1408 .f32) (harg5 : arg5.IsWhole) (arg6 : Memref sig .tc .vmem S1024x1408 .f32) (harg6 : arg6.IsWhole)
    (arg7 : Memref sig .tc .vmem S1024x1408 .f32) (harg7 : arg7.IsWhole) (hc1 : cond1 i) (hc2 : ¬cond2 i)
    (x : Vec F S1024x2048 .bf16) (w : Vec F S2048x1408 .bf16) (b : Vec F S1x1408 .f32) (o : Vec F S1024x1408 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k1_pay2 k1_pay1 x w)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc1 | exact hc2)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  rw [View.read_writes_eq_canon _ _ _ (fun y => ⟨_, List.mem_cons_self, View.mem_set_unit_zero hz2 inb_S1024x1408_S1024x1408_0_0 y⟩)]
  sl_unfold_words
  rw [View.canon_cons_unit_zero hz2, View.readCov_unit_zero _ hz2]
  simp only [View.readAt_eq_ld, hf3, hf4, View.ld_unit_zero (S := S1024x2048) hz2, View.ld_unit_zero (S := S2048x1408) hz2]

set_option maxHeartbeats 1000000 in
/-- The body at a point that ends a contraction (first conditional not taken, second taken): from the three inputs'
    buffers at their tiles, the output's buffer at anything and the accumulator at what the point before left, it
    runs to the accumulator at that plus the product of the two tiles, stored whole, and the output's buffer at the
    new accumulator, read back, plus the bias row, stored whole. -/
theorem run_odd (c : Dev nD) (i : grid1.Coords)
    (arg3 : Memref sig .tc .vmem S1024x2048 .bf16) (harg3 : arg3.IsWhole) (arg4 : Memref sig .tc .vmem S2048x1408 .bf16) (harg4 : arg4.IsWhole)
    (arg5 : Memref sig .tc .vmem S1x1408 .f32) (harg5 : arg5.IsWhole) (arg6 : Memref sig .tc .vmem S1024x1408 .f32) (harg6 : arg6.IsWhole)
    (arg7 : Memref sig .tc .vmem S1024x1408 .f32) (harg7 : arg7.IsWhole) (hc1 : ¬cond1 i) (hc2 : cond2 i)
    (x : Vec F S1024x2048 .bf16) (w : Vec F S2048x1408 .bf16) (b : Vec F S1x1408 .f32) (a : Vec F S1024x1408 .f32)
    (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 a x w) b) ∗ owns (c : Thread nD τ) arg7 fullShare (k1_pay2 a x w)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact hc1 | exact hc2)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (fun y => ⟨_, List.mem_cons_self, View.mem_set_unit_zero hz2 inb_S1024x1408_S1024x1408_0_0 y⟩)]
    rw [View.canon_unit_zero hz2, View.readCov_unit_zero _ hz2]
    simp only [View.readAt_eq_ld, hf3, hf4, hf5, hf7, View.ld_unit_zero (S := S1024x2048) hz2, View.ld_unit_zero (S := S2048x1408) hz2, View.ld_unit_zero (S := S1024x1408) hz2, View.ld_unit_zero (S := S1x1408) hz2]
  iexists _; isplitr
  swap; · iexact H7
  ipureintro
  sl_unfold_words
  rw [View.read_writes_eq_canon _ _ _ (fun y => ⟨_, List.mem_cons_self, View.mem_set_unit_zero hz2 inb_S1024x1408_S1024x1408_0_0 y⟩)]
  rw [View.canon_unit_zero hz2]
  simp only [View.readAt_eq_ld, hf3, hf4, hf5, hf7, View.ld_unit_zero (S := S1024x2048) hz2, View.ld_unit_zero (S := S2048x1408) hz2, View.ld_unit_zero (S := S1024x1408) hz2, View.ld_unit_zero (S := S1x1408) hz2]

/-! ## The accumulator's two steps -/

/-- After a point that starts a contraction the accumulator is zero plus that point's product. -/
theorem accAt_even (c : Dev nD) (t : Fin cfg1.N) (h : t.val % 2 = 0) :
    accAt V c t.val t.isLt = k1_pay2 k1_pay1 (xb V c t) (wb V c t) := by
  unfold accAt; rw [if_pos h]; rfl

/-- After a point that ends one it is what the point before left plus this point's product. -/
theorem accAt_odd (c : Dev nD) (t : Fin cfg1.N) (h : t.val % 2 = 1) :
    accAt V c t.val t.isLt = k1_pay2 (accAt V c (t.val - 1) (Nat.lt_of_le_of_lt (Nat.sub_le _ _) t.isLt)) (xb V c t) (wb V c t) := by
  have h0 : ¬ t.val % 2 = 0 := by omega
  have h1 : (t.val - 1) % 2 = 0 := by omega
  unfold accAt; rw [if_neg h0, if_pos h1]

/-! ## The body obligation, at a generic point -/

/-- What the body is called with at point `t`, the windows one by one, -/
def bodyPre (c : Dev nD) (t : Fin cfg1.N) : sProp 𝕄 :=
  iprop((dat (F := F) V c).Φ t.castSucc ∗ (dat (F := F) V c).owesAt () t.castSucc
    ∗ (∃ d, owns (c : Thread nD τ) (st1_0 t) fullShare ((dat (F := F) V c).before 0 t d))
    ∗ (∃ d, owns (c : Thread nD τ) (st1_1 t) fullShare ((dat (F := F) V c).before 1 t d))
    ∗ (∃ d, owns (c : Thread nD τ) (st1_2 t) fullShare ((dat (F := F) V c).before 2 t d))
    ∗ (∃ d, owns (c : Thread nD τ) (st1_3 t) fullShare ((dat (F := F) V c).before 3 t d)))

/-- and what it returns. -/
def bodyPost (c : Dev nD) (t : Fin cfg1.N) : sProp 𝕄 :=
  iprop((dat (F := F) V c).Φ t.succ ∗ (dat (F := F) V c).owesAt () t.succ
    ∗ (dat (F := F) V c).leavesExact 0 t
    ∗ (dat (F := F) V c).leavesExact 1 t
    ∗ (dat (F := F) V c).leavesExact 2 t
    ∗ (dat (F := F) V c).leavesExact 3 t)

set_option maxHeartbeats 4800000 in
/-- The body at any point: each input's buffer holds its tile; the closed forms say whether the point starts a
    contraction or ends one. At a start the invariant hands the accumulator at anything (the first point) or at what
    the point before left, the output's buffer is handed back as found, and the accumulator is left at zero plus the
    product. At an end the accumulator comes in at what the point before left and goes out at that plus the product,
    and the output's buffer goes out at the new accumulator plus the bias row. The core owes nothing throughout. -/
theorem sound_body (c : Dev nD) (t : Fin cfg1.N) :
    bodyPre (F := F) V c t ⊢ wp frame (wpE (defs₀ (F := F)) Variants.none c none) Set.univ (bodyAt1 t) (fun _ => bodyPost (F := F) V c t) := by
  unfold bodyPre bodyPost bodyAt1
  simp only [before_0, before_1, before_2]
  rw [show (dat V c).owesAt () t.succ = (dat V c).owesAt () t.castSucc from rfl]
  rw [Phi_succ, PhiS_succ]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  rw [show (dat V c).leavesExact 2 t = owns (c : Thread nD τ) (st1_2 t) fullShare ((dat V c).after 2 t) from by
    unfold Dat.leavesExact; rw [live_2 t], after_2]
  have hN : t.val < 128 := lt_of_lt_of_eq t.isLt (show cfg1.N = 128 from N_1)
  by_cases h : t.val % 2 = 0
  · have hc1 : cond1 (grid1.coords t) := (hcond1 t).mpr h
    have hc2 : ¬cond2 (grid1.coords t) := fun hc => by have := (hcond2 t).mp hc; omega
    rw [Dat.leavesExact_idle (dat V c) 3 t (idle_3_even t h) (noflush_3_even t h)]
    rw [accAt_even V c t h]
    by_cases hz : t.val = 0
    · rw [Phi_castSucc, PhiS_zero V c _ _ hz]
      refine (sep_mono (PhiA_in c) .rfl).trans ?_
      iintro ⟨⟨⟨Hoth, HS⟩, Hg⟩, Ho, ⟨%d0, H0⟩, ⟨%d1, H1⟩, ⟨%d2, H2⟩, ⟨%d3, H3⟩⟩
      iapply (run_even c (grid1.coords t) _ _ _ _ _ _ _ _ _ _ hc1 hc2 (iblk V c 0 t) (iblk V c 1 t) (iblk V c 2 t) ((dat V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth HS]
        · isplitl [Hoth]; · iexact Hoth
          iexact HS
        · iexact Hg
      isplitl [Ho]; · iexact Ho
      isplitl [H0]; · iexact H0
      isplitl [H1]; · iexact H1
      isplitl [H2]; · iexact H2
      iexists _; iexact H3
    · rw [Phi_castSucc, PhiS_pos V c _ _ hz]
      iintro ⟨⟨⟨Hoth, HS⟩, Hg⟩, Ho, ⟨%d0, H0⟩, ⟨%d1, H1⟩, ⟨%d2, H2⟩, ⟨%d3, H3⟩⟩
      iapply (run_even c (grid1.coords t) _ _ _ _ _ _ _ _ _ _ hc1 hc2 (iblk V c 0 t) (iblk V c 1 t) (iblk V c 2 t) ((dat V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hoth HS Hg]
      · isplitl [Hoth HS]
        · isplitl [Hoth]; · iexact Hoth
          iexact HS
        · iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    have hc1 : ¬cond1 (grid1.coords t) := fun hc => h ((hcond1 t).mp hc)
    have hc2 : cond2 (grid1.coords t) := (hcond2 t).mpr h1
    rw [show (dat V c).leavesExact 3 t = owns (c : Thread nD τ) (st1_3 t) fullShare ((dat V c).after 3 t) from by
      unfold Dat.leavesExact; rw [live_3_odd t h1], after_3]
    unfold outTile
    rw [accAt_odd V c t h1]
    rw [Phi_castSucc, PhiS_pos V c _ _ hz]
    iintro ⟨⟨⟨Hoth, HS⟩, Hg⟩, Ho, ⟨%d0, H0⟩, ⟨%d1, H1⟩, ⟨%d2, H2⟩, ⟨%d3, H3⟩⟩
    iapply (run_odd c (grid1.coords t) _ _ _ _ _ _ _ _ _ _ hc1 hc2 (iblk V c 0 t) (iblk V c 1 t) (iblk V c 2 t)
      (accAt V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [Hoth HS Hg]
    · isplitl [Hoth HS]
      · isplitl [Hoth]; · iexact Hoth
        iexact HS
      · iexact Hg
    isplitl [Ho]; · iexact Ho
    isplitl [H0]; · iexact H0
    isplitl [H1]; · iexact H1
    isplitl [H2]; · iexact H2
    iexact H3

/-- The library's exact body obligation, at every point: the output's buffer is stored whole wherever it is written
    back, so it holds the named tile outright. -/
theorem body_obligation_exact (c : Dev nD) : BodyObligation (dat (F := F) V c) (defs₀ (F := F)) Variants.none () Set.univ := fun t => by
  rw [bigSep_W1, bigSep_W1]
  exact sound_body V c t

/-- The pipeline rule's obligation for the body, at every grid point, in the form for a window whose last block
    runs past its array (the output's staging buffer is described on the part the write-back moves). -/
theorem body_obligation (c : Dev nD) : Pipeline.BodyObligationLoose (dat (F := F) V c) (defs₀ (F := F)) Variants.none () Set.univ :=
  (body_obligation_exact V c).loose

/-- What the call is handed at entry is the invariant before the first point. -/
theorem hin (c : Dev nD) : (Pipeline.ΦA spec1 c : sProp 𝕄) ⊢ (dat (F := F) V c).Φ 0 := by
  rw [show (dat V c).Φ 0 = PhiS V c 0 (Nat.zero_le _) from rfl, PhiS_zero V c 0 _ rfl]

/-- After the last point the invariant gives back what the call was handed: the accumulator's contents are forgotten. -/
theorem hout (c : Dev nD) : (dat (F := F) V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  refine .trans ?_ (PhiA_out c)
  iintro ⟨⟨Hoth, HS⟩, Hg⟩
  isplitl [Hoth HS]
  · isplitl [Hoth]; · iexact Hoth
    iexists _; iexact HS
  iexact Hg

end Cert.Kernel.Mm

end
-- ==== Proof.LibRegion.lean ====
import Idealize.ShloMosaic.Lib.Pipeline.FrameBody
import Idealize.ShloMosaic.Lib.Pipeline.Regions
import Idealize.ShloMosaic.Lib.Pipeline.RegionsLoop
import Idealize.ShloMosaic.Lib.Tactic

/-!
# A kernel region over the thread state "every unscoped buffer at a valuation", for windows that may share an array

`regionSegHeld` builds the segment record of a kernel region whose thread state before and after is every unscoped
buffer of the core held whole at a valuation, beside the generator register and the core owing nothing. The
buffers behind the windows' arrays are cut out of the unscoped buffers as a set (so two windows on one array cut
out one buffer), and how that set of whole buffers is dealt among the windows is a hypothesis (`hsplit` / `hjoin`).

`arrays_eq_arrBufs_shared` discharges that hypothesis where exactly two input windows read one array, one at the
left half of the full share and one at the right half; `arrays_eq_arrBufs_distinct` where all arrays are distinct.
-/

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligationLoose WinFacts WinFacts₀ arrRef arrBufs unscopedRest pin)

variable {nD : Nat} {τ : Topo} {sig : RefSig} {Val : EltTy → Type}
variable {U : Type} [URA U]

local notation "𝕄" => MT nD τ sig Unit Val ℕ U ℕ

/-- What rides beside the buffers through every segment: the core's generator register at some state and the core
    owing nothing, at some recorded set. -/
abbrev R (c : Dev nD) : sProp 𝕄 :=
  iprop((∃ r, prngReg c r) ∗ ∃ W, owes (c : Thread nD τ) (0 : CellTallies nD τ sig Unit) W)

/-! ## Dealing the buffers behind the arrays among the windows -/

section Share

variable {Λ₀ : Idealize.SL.Sem.Labels} (cfg : Cfg sig Λ₀) (c : Dev nD) (dat : Dat τ Val Unit ℕ U ℕ cfg c)

/-- The buffer behind window `w`'s array, whole at share `q`, at the contents the valuation `V` names for it. -/
abbrev winBuf (V : (b : Ref sig .tc) → Buf Val ((c.tc : Thread nD τ).loc b)) (w : Fin cfg.W) (q : PosShare TreeShare) : sProp 𝕄 :=
  ((c.tc : Thread nD τ).loc (arrRef cfg.spec w)) ↦{q} V (arrRef cfg.spec w)

/-- The pipeline's arrays, each a whole buffer, at contents read off `V`: each window's buffer at the window's share. -/
theorem arrays_eq_winBufs (harr : ∀ w, (cfg.spec w).arr.IsWhole) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = bigSep Finset.univ fun w => (winBuf cfg c V w (dat.share w) : sProp 𝕄) := by
  unfold Dat.arrays
  exact bigSep_congr fun w _ => by rw [(harr w).set_eq_univ, hF]

/-- All arrays distinct whole buffers, every window at the full share: the pipeline's arrays at contents read off a
    valuation `V` are the buffers behind them whole at `V`. -/
theorem arrays_eq_arrBufs_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  rw [arrays_eq_winBufs cfg c dat harr V F hF]
  unfold arrBufs
  rw [show Finset.univ.image (arrRef cfg.spec) = Finset.univ.map ⟨arrRef cfg.spec, hinj⟩ from
    (Finset.map_eq_image ⟨arrRef cfg.spec, hinj⟩ Finset.univ).symm, bigSep_map]
  exact bigSep_congr fun w _ => by rw [hshare]; rfl

/-- Two windows `w₀ ≠ w₁` read ONE array, `w₀` at the left half of the full share and `w₁` at the right half; the
    arrays are otherwise distinct (distinct off `w₁`) and every other window holds its array at the full share; every
    array is a whole buffer. Then the pipeline's arrays at contents read off a valuation `V` are the DISTINCT buffers
    behind them whole at `V`: the shared buffer's full share is the two halves (the share law of the points-to). -/
theorem arrays_eq_arrBufs_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  have hw₀ : w₀ ∈ (Finset.univ : Finset (Fin cfg.W)).erase w₁ := Finset.mem_erase.mpr ⟨hne, Finset.mem_univ _⟩
  -- the distinct buffers are those of the windows other than w₁, on which the arrays are distinct
  have himg : Finset.univ.image (arrRef cfg.spec) = (Finset.univ.erase w₁).image (arrRef cfg.spec) := by
    ext b
    simp only [Finset.mem_image, Finset.mem_univ, true_and, Finset.mem_erase, and_true]
    constructor
    · rintro ⟨w, rfl⟩
      by_cases hw : w = w₁
      · exact ⟨w₀, hne, by rw [hw, h01]⟩
      · exact ⟨w, hw, rfl⟩
    · rintro ⟨w, _, rfl⟩; exact ⟨w, rfl⟩
  have hbufs : (arrBufs cfg.spec c V : sProp 𝕄) = bigSep (Finset.univ.erase w₁) fun w => (winBuf cfg c V w fullShare : sProp 𝕄) := by
    unfold arrBufs bigSep
    rw [himg]
    exact Finset.fold_image fun x hx y hy h => hinj x y (Finset.ne_of_mem_erase hx) (Finset.ne_of_mem_erase hy) h
  -- window w₀'s buffer out of them, its full share the two halves
  have h2 : bigSep (Finset.univ.erase w₁) (fun w => (winBuf cfg c V w fullShare : sProp 𝕄))
      = iprop(winBuf cfg c V w₀ fullShare ∗ bigSep ((Finset.univ.erase w₁).erase w₀) fun w => (winBuf cfg c V w fullShare : sProp 𝕄)) :=
    bigSep_erase hw₀
  have h3 : (winBuf cfg c V w₀ fullShare : sProp 𝕄) = iprop(winBuf cfg c V w₀ fullShare.left ∗ winBuf cfg c V w₀ fullShare.right) := by
    have hs : (winBuf cfg c V w₀ fullShare : sProp 𝕄) ⊣⊢ iprop(winBuf cfg c V w₀ fullShare.left ∗ winBuf cfg c V w₀ fullShare.right) :=
      pointsTo_share (PosShare.mem_left_op_right fullShare)
    exact BI.equiv_iff.mp ⟨hs.1, hs.2⟩
  -- the windows' arrays: w₁'s at the right half, w₀'s at the left half, the others' whole
  have e1 : dat.share w₁ = fullShare.right := by rw [hshare, if_neg (Ne.symm hne), if_pos rfl]
  have e0 : dat.share w₀ = fullShare.left := by rw [hshare, if_pos rfl]
  have h1 : bigSep Finset.univ (fun w => (winBuf cfg c V w (dat.share w) : sProp 𝕄))
      = iprop(winBuf cfg c V w₁ fullShare.right ∗ winBuf cfg c V w₀ fullShare.left
          ∗ bigSep ((Finset.univ.erase w₁).erase w₀) fun w => (winBuf cfg c V w fullShare : sProp 𝕄)) := by
    rw [bigSep_erase (Finset.mem_univ w₁), bigSep_erase hw₀, e1, e0]
    congr 2
    exact bigSep_congr fun w hw => by
      rw [hshare, if_neg (Finset.ne_of_mem_erase hw), if_neg (Finset.ne_of_mem_erase (Finset.mem_of_mem_erase hw))]
  -- w₁'s buffer is w₀'s
  have h4 : (winBuf cfg c V w₁ fullShare.right : sProp 𝕄) = winBuf cfg c V w₀ fullShare.right := by
    unfold winBuf; rw [h01]
  rw [arrays_eq_winBufs cfg c dat harr V F hF, hbufs, h1, h2, h3, h4]
  refine BI.equiv_iff.mp ⟨?_, ?_⟩
  · show (_ : sProp 𝕄) ⊢ _
    iintro ⟨Hr, Hl, Hs⟩
    isplitl [Hl Hr]
    · isplitl [Hl] <;> iassumption
    iexact Hs
  · show (_ : sProp 𝕄) ⊢ _
    iintro ⟨⟨Hl, Hr⟩, Hs⟩
    isplitl [Hr]; · iexact Hr
    isplitl [Hl] <;> iassumption

/-- ENTRY, shared array: the distinct buffers behind the arrays, whole at `V`, deal the pipeline its arrays at the
    contents read off `V` (`arrays_eq_arrBufs_shared`, right to left). -/
theorem arrBufs_split_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_shared cfg c dat w₀ w₁ hne h01 hinj harr hshare V F hF).symm

/-- EXIT, shared array: the pipeline's arrays at contents read off `V` are collected into the distinct buffers behind
    them, whole at `V` (`arrays_eq_arrBufs_shared`, left to right). -/
theorem arrBufs_join_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_shared cfg c dat w₀ w₁ hne h01 hinj harr hshare V F hF)

/-- ENTRY, distinct arrays (`arrays_eq_arrBufs_distinct`, right to left). -/
theorem arrBufs_split_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_distinct cfg c dat hinj harr hshare V F hF).symm

/-- EXIT, distinct arrays (`arrays_eq_arrBufs_distinct`, left to right). -/
theorem arrBufs_join_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_distinct cfg c dat hinj harr hshare V F hF)

end Share

/-! ## The region's segment record -/

section Region

variable {Λ₀ : Idealize.SL.Sem.Labels} {P : Type} [Fintype P]
variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- A kernel region entered from every unscoped buffer held whole at `Vin c` (beside `R c`) and left at `Vout c`:
    no prefetched table, no semaphore of the kernel's own, nothing owed. The body's invariant at the first point is
    made of the generator register and the scoped buffers that are no staging buffer (`hin`), and gives them back at
    the last point (`hout`). The buffers behind the arrays are dealt to the windows by `hsplit` at entry and
    collected by `hjoin` at exit; off those buffers the valuation is unchanged (`hrest`). -/
def regionSegHeld (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := unscopedRest (Ix := Unit) (Name := ℕ) (U := U) (Lvl := ℕ) (pin pcs a p).spec c (fun b => Vin c b)
  hentry c := by
    -- the unscoped buffers at `Vin c` are the buffers behind the arrays and the rest; the former are dealt to the windows
    rw [Pipeline.ownSems0_none]
    have hub : (StableHlo.held (c : Thread nD τ) (Pipeline.ucRefs τ sig) (Vin c) : sProp 𝕄)
        = iprop(arrBufs (pin pcs a p).spec c (fun b => Vin c b) ∗ unscopedRest (pin pcs a p).spec c (fun b => Vin c b)) := by
      rw [← Pipeline.unscopedBufs_held, Pipeline.unscopedBufs_split₀ (pin pcs a) p win.arr_unscoped c]
    rw [hub]
    have hs := hsplit c
    iintro ⟨⟨⟨Hab, Hrest⟩, Hp, HO⟩, -, -⟩
    ihave Ha := hs $$ Hab
    imodintro
    isplitl [Ha]; · iexact Ha
    isplitr
    · -- no table is prefetched: nothing to hold
      unfold Pipeline.prefHeld
      rw [show (Finset.univ : Finset (Fin (pcs p).pre.K)) = ∅ from
        Finset.univ_eq_empty_iff.mpr ⟨fun k => by have := k.isLt; omega⟩, BI.bigSep_empty]
      iempintro
    isplitl [HO]
    · -- nothing owed; any recorded set lies within the first point's bound
      unfold Pipeline.Dat.owesAt Pipeline.owesWithin
      icases HO with ⟨%W, HO⟩; iexists W; isplitr
      · ipureintro; exact fun x _ => Or.inl (by rw [hrec c]; trivial)
      rw [howed c 0]; iexact HO
    isplitl [Hp]; · iexact Hp
    iexact Hrest
  hin c := by
    have h := hin c
    iintro ⟨Hp, -, Hr⟩
    iapply h
    isplitl [Hp] <;> iassumption
  hout c := by
    rw [Pipeline.ownSems0_none]
    refine (hout c).trans ?_
    iintro ⟨Hp, Hr⟩
    isplitl [Hp]; · iexact Hp
    isplitr; · iempintro
    iexact Hr
  hexit c := by
    -- the unscoped buffers at `Vout c` are the buffers behind the arrays at `Vout c` and the rest, unchanged since entry
    have hub : (StableHlo.held (c : Thread nD τ) (Pipeline.ucRefs τ sig) (Vout c) : sProp 𝕄)
        = iprop(arrBufs (pin pcs a p).spec c (fun b => Vout c b) ∗ unscopedRest (pin pcs a p).spec c (fun b => Vin c b)) := by
      rw [← Pipeline.unscopedBufs_held, Pipeline.unscopedBufs_split₀ (pin pcs a) p win.arr_unscoped c]
      congr 1
      unfold Pipeline.unscopedRest
      exact bigSep_congr fun b hb => by beta_reduce; rw [hrest c b (Finset.mem_sdiff.mp hb).2]
    rw [hub]
    have hj := hjoin c
    iintro ⟨Ha, HO, HY, Hrest⟩
    ihave Hab := hj $$ Ha
    imodintro
    isplitl [Hab Hrest]
    · isplitl [Hab] <;> iassumption
    isplitl [HY]; · iexact HY
    unfold Pipeline.Dat.owesAt Pipeline.owesWithin
    icases HO with ⟨%W, -, HO⟩; iexists W
    rw [howed c (Fin.last _)]; iexact HO

/-- The thread state `regionSegHeld` is entered from. -/
theorem regionSegHeld_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).pre c
      = iprop(StableHlo.held (c : Thread nD τ) (Pipeline.ucRefs τ sig) (Vin c) ∗ R c) := rfl

/-- The thread state `regionSegHeld` leaves. -/
theorem regionSegHeld_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).post c
      = iprop(StableHlo.held (c : Thread nD τ) (Pipeline.ucRefs τ sig) (Vout c) ∗ R c) := rfl

/-- The class invariant (the scoped buffers that are no staging buffer, the generator register) is made of the
    generator register and those scoped buffers. -/
theorem ΦA_of (p : P) (c : Dev nD) :
    (iprop((∃ r, prngReg c r) ∗ Pipeline.scopedRest (pin pcs a p).spec c) : sProp 𝕄) ⊢ Pipeline.ΦA (pin pcs a p).spec c := by
  unfold Pipeline.ΦA
  iintro ⟨Hp, Hr⟩
  isplitl [Hr] <;> iassumption

/-- The class invariant gives back the generator register and the scoped buffers that are no staging buffer. -/
theorem of_ΦA (p : P) (c : Dev nD) :
    (Pipeline.ΦA (pin pcs a p).spec c : sProp 𝕄) ⊢ iprop((∃ r, prngReg c r) ∗ Pipeline.scopedRest (pin pcs a p).spec c) := by
  unfold Pipeline.ΦA
  iintro ⟨Hr, Hp⟩
  isplitl [Hp] <;> iassumption

/-- `regionSegHeld` for a body whose invariant at the first and at the last point IS the class invariant. -/
def regionSegHeldA (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p :=
  regionSegHeld pcs a pdats defs₀ 𝒱₀ L lv p win block_pos stage_whole hpre hbody
    (fun c => by rw [hΦ0 c]; exact ΦA_of pcs a p c) (fun c => by rw [hΦN c]; exact of_ΦA pcs a p c)
    howed hrec Vin Vout hsplit hjoin hrest

/-- The thread state `regionSegHeldA` is entered from. -/
theorem regionSegHeldA_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).pre c
      = iprop(StableHlo.held (c : Thread nD τ) (Pipeline.ucRefs τ sig) (Vin c) ∗ R c) := rfl

/-- The thread state `regionSegHeldA` leaves. -/
theorem regionSegHeldA_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).post c
      = iprop(StableHlo.held (c : Thread nD τ) (Pipeline.ucRefs τ sig) (Vout c) ∗ R c) := rfl

end Region

end Cert.LibRegion

end
-- ==== Proof.KLaunch.lean ====
/-
  The whole program's run: the host operations before the two kernel calls, the first call (which fills the
  dequantized weight matrix), the second call (which fills the product), and the final reshape.  The buffers'
  contents at each boundary are named, so that the result buffer's final contents are stated in terms of what the
  two calls' write-backs leave.
-/
import proofs.«423540_j24867860644059_3_alg».proof.Proof.Gen.Kernel.Regions
import proofs.«423540_j24867860644059_3_alg».proof.Proof.KDequantBody
import proofs.«423540_j24867860644059_3_alg».proof.Proof.KMatmulBody
import proofs.«423540_j24867860644059_3_alg».proof.Proof.LibRegion

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The buffers' contents on core `c` when the first call is entered: the launch contents after the host
    operations before it. -/
abbrev Vin (c : Dev nD) (b : Ref sig .tc) : Buf (Elt F) ((c : Thread nD τ).loc b) := Gen.V9 m c b

/-- The buffers' contents when the second call is entered: as before, but the weight matrix's buffer at what the
    first call's write-backs leave. -/
def Vmid (c : Dev nD) (b : Ref sig .tc) : Buf (Elt F) ((c : Thread nD τ).loc b) :=
  Function.update (Gen.V9 m c) main_v7 ((Dq.dat (F := F) (Vin m) c).arrAt 3 cfg0.N) b

theorem Vmid_v7 (c : Dev nD) : Vmid m c main_v7 = (Dq.dat (F := F) (Vin m) c).arrAt 3 cfg0.N := by
  unfold Vmid
  exact Function.update_self _ _ _

theorem Vmid_of_ne (c : Dev nD) (b : Ref sig .tc) (h : b ∉ ([main_v7] : List (Ref sig .tc))) : Vmid m c b = Vin m c b := by
  unfold Vmid
  exact Function.update_of_ne (StableHlo.devRef_ne_of_ne (List.ne_of_not_mem_cons h) : (Proc.devRef .tc b : DevRef τ sig) ≠ Proc.devRef .tc main_v7) _ _

/-- The buffers' contents when the second call is left: as it was entered, but the product's buffer at what the
    second call's write-backs leave. -/
def Vend (c : Dev nD) (b : Ref sig .tc) : Buf (Elt F) ((c : Thread nD τ).loc b) :=
  Function.update (fun d : DevRef τ sig => Function.update (Gen.V9 m c) main_v7 ((Dq.dat (F := F) (Vin m) c).arrAt 3 cfg0.N) d)
    main_v8 ((Mm.dat (F := F) (Vmid m) c).arrAt 3 cfg1.N) b

theorem Vend_v8 (c : Dev nD) : Vend m c main_v8 = (Mm.dat (F := F) (Vmid m) c).arrAt 3 cfg1.N := by
  unfold Vend
  exact Function.update_self _ _ _

theorem Vend_of_ne (c : Dev nD) (b : Ref sig .tc) (h : b ∉ ([main_v8] : List (Ref sig .tc))) : Vend m c b = Vmid m c b := by
  unfold Vend Vmid
  exact Function.update_of_ne (StableHlo.devRef_ne_of_ne (List.ne_of_not_mem_cons h) : (Proc.devRef .tc b : DevRef τ sig) ≠ Proc.devRef .tc main_v8) _ _

/-- What the two calls leave in the buffers they may change: the first in the weight matrix's, the second in the
    product's. -/
def outs : Gen.Outs (F := F) := fun J r c => if J = 10 then Vmid m c r else Vend m c r

/-- After the first call the buffers hold what the second call is entered with. -/
theorem V10_eq (c : Dev nD) (b : Ref sig .tc) : Gen.V10 m (outs m) c b = Vmid m c b := by
  show Function.update (Gen.V9 m c) main_v7 (outs m 10 main_v7 c) b = Vmid m c b
  rw [show outs m 10 main_v7 c = Vmid m c main_v7 from if_pos rfl, Vmid_v7]
  rfl

/-- After the second call the buffers hold `Vend`. -/
theorem V11_eq (c : Dev nD) (b : Ref sig .tc) : Gen.V11 m (outs m) c b = Vend m c b := by
  show Function.update (Function.update (Gen.V9 m c) main_v7 (outs m 10 main_v7 c)) main_v8 (outs m 11 main_v8 c) b = Vend m c b
  rw [show outs m 10 main_v7 c = Vmid m c main_v7 from if_pos rfl, Vmid_v7,
    show outs m 11 main_v8 c = Vend m c main_v8 from if_neg (by decide), Vend_v8]
  rfl

/-- The result buffer's final contents. -/
def result (c : Dev nD) : Buf (Elt F) ((c : Thread nD τ).loc main_v9) :=
  Gen.V12 m (outs m) c main_v9

/-- The result is the product array the second call's write-backs leave, reshaped. -/
theorem result_eq (c : Dev nD) :
    result m c = shapeCast S4x2048x11008 ((Mm.dat (F := F) (Vmid m) c).arrAt 3 cfg1.N) shapeCasts_S8192x11008_S4x2048x11008 := by
  unfold result
  show StableHlo.after Gen.hostOps2 (Gen.V11 m (outs m) c) (Proc.devRef .tc main_v9) = _
  after_results
  rw [show Gen.V11 m (outs m) c (Proc.devRef .tc main_v8) = Vend m c main_v8 from V11_eq m c main_v8, Vend_v8]
  rfl

/-! ## The run from the two calls' records -/

set_option backward.isDefEq.respectTransparency.types false in
/-- The run, given the two calls' segment records: as the frame claim over those records, with the result buffer
    read off the last boundary's contents beside the arguments. Every weakly fair execution from memory `m` with
    zero counters terminates; every final memory holds the result buffer at the last contents and each argument as
    launched. -/
theorem run_of_records {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : Pipeline.RegionSeg (pcfgs (F := F)) Gen.adm pdats ι defs₀ 𝒱₀ L lv 0)
    (hpre0 : ∀ c : Dev nD, iprop(StableHlo.held (c : Thread nD τ) (Pipeline.ucRefs τ sig) (Gen.V9 m c) ∗ E 0 c) ⊢ R0.pre c)
    (hpost0 : ∀ c : Dev nD, R0.post c ⊢ iprop(StableHlo.held (c : Thread nD τ) (Pipeline.ucRefs τ sig) (Gen.V10 m outs c) ∗ E 1 c))
    (R1 : Pipeline.RegionSeg (pcfgs (F := F)) Gen.adm pdats ι defs₀ 𝒱₀ L lv 1)
    (hpre1 : ∀ c : Dev nD, iprop(StableHlo.held (c : Thread nD τ) (Pipeline.ucRefs τ sig) (Gen.V10 m outs c) ∗ E 1 c) ⊢ R1.pre c)
    (hpost1 : ∀ c : Dev nD, R1.post c ⊢ iprop(StableHlo.held (c : Thread nD τ) (Pipeline.ucRefs τ sig) (Gen.V11 m outs c) ∗ E 2 c)) :
    θ_run defs (onTc (τ := τ) (main (F := F))) ⟨m, fun _ => 0, ρ⟩ (fun r => ∀ c : Dev nD,
      r.2.mem ((c.tc : Thread nD τ).loc main_v9) = Gen.V12 m outs c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Pipeline.Seg.run_eq_chain,
        show (Gen.segs m outs 𝒱₀ L lv E ι pdats R0 R1 c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V12 m outs c))
    (hch := fun c => ⟨.rfl, .rfl, .rfl, .rfl, .rfl, .rfl, .rfl, .rfl, .rfl, hpre0 c, (hpost0 c).trans (hpre1 c), hpost1 c, sep_mono .rfl (hE2 c)⟩)
    (hinit := ?_) (QY := fun c s => s.mem ((c.tc : Thread nD τ).loc main_v9) = Gen.V12 m outs c main_v9 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last contents
    unfold StableHlo.held
    iintro ⟨Hh, HSI⟩
    ihave Hr := (pointsTo_read_all (Pipeline.ucRefs τ sig) (fun b => ((c : Thread nD τ).1, b)) (Gen.V12 m outs c) s') $$ [Hh HSI]
    · isplitl [Hh] <;> iassumption
    icases Hr with ⟨%h, HSI⟩
    imodintro
    isplitr
    · ipureintro
      exact ⟨h (Proc.devRef .tc main_v9) (Finset.mem_filter.mpr ⟨StableHlo.devRef_mem_tcRefs main_v9, by decide⟩),
        (h (Proc.devRef .tc main_arg0) (Finset.mem_filter.mpr ⟨StableHlo.devRef_mem_tcRefs main_arg0, by decide⟩)).trans (Gen.V12_main_arg0 m outs c),
        (h (Proc.devRef .tc main_arg1) (Finset.mem_filter.mpr ⟨StableHlo.devRef_mem_tcRefs main_arg1, by decide⟩)).trans (Gen.V12_main_arg1 m outs c),
        (h (Proc.devRef .tc main_arg2) (Finset.mem_filter.mpr ⟨StableHlo.devRef_mem_tcRefs main_arg2, by decide⟩)).trans (Gen.V12_main_arg2 m outs c),
        (h (Proc.devRef .tc main_arg3) (Finset.mem_filter.mpr ⟨StableHlo.devRef_mem_tcRefs main_arg3, by decide⟩)).trans (Gen.V12_main_arg3 m outs c),
        (h (Proc.devRef .tc main_arg4) (Finset.mem_filter.mpr ⟨StableHlo.devRef_mem_tcRefs main_arg4, by decide⟩)).trans (Gen.V12_main_arg4 m outs c)⟩
    · iexact HSI

/-! ## The two calls as segments -/

/-- Each call's record, at the contents the call is entered with. -/
def pdats : (p : Fin 2) → (c : Dev nD) → Dat τ (Elt F) Unit ℕ (UR sig nD τ) ℕ (Pipeline.pin (pcfgs (F := F)) Gen.adm p) c
  | ⟨0, _⟩ => fun c => Dq.dat (Vin m) c
  | ⟨1, _⟩ => fun c => Mm.dat (Vmid m) c

/-- No core owes another anything: no level is assigned. -/
abbrev L : GSem nD τ sig → Finset Unit := fun _ => ∅
abbrev lv : GSem nD τ sig → Unit → ℕ := fun _ _ => 0

/-- When the first call is left, each of its arrays holds what the boundary's contents name for it: the inputs
    were never written, the weight matrix is at what the write-backs leave. -/
theorem hF0 (c : Dev nD) : ∀ w : Fin cfg0.W,
    (Dq.dat (F := F) (Vin m) c).arrAt w cfg0.N = Gen.V10 m (outs m) c (Pipeline.arrRef spec0 w)
  | ⟨0, _⟩ => (((Dq.dat (F := F) (Vin m) c).arrAt_in 0 rfl _).trans (Dq.A_eq (Vin m) c 0)).trans (Gen.V10_of m (outs m) c main_v0 (by decide)).symm
  | ⟨1, _⟩ => (((Dq.dat (F := F) (Vin m) c).arrAt_in 1 rfl _).trans (Dq.A_eq (Vin m) c 1)).trans (Gen.V10_of m (outs m) c main_v1 (by decide)).symm
  | ⟨2, _⟩ => (((Dq.dat (F := F) (Vin m) c).arrAt_in 2 rfl _).trans (Dq.A_eq (Vin m) c 2)).trans (Gen.V10_of m (outs m) c main_v2 (by decide)).symm
  | ⟨3, _⟩ => (Vmid_v7 m c).symm.trans (V10_eq m c main_v7).symm

/-- When the second call is left, each of its arrays holds what the boundary's contents name for it. -/
theorem hF1 (c : Dev nD) : ∀ w : Fin cfg1.W,
    (Mm.dat (F := F) (Vmid m) c).arrAt w cfg1.N = Gen.V11 m (outs m) c (Pipeline.arrRef spec1 w)
  | ⟨0, _⟩ => ((((Mm.dat (F := F) (Vmid m) c).arrAt_in 0 rfl _).trans (Mm.A_eq (Vmid m) c 0)).trans (V10_eq m c main_v6).symm).trans (Gen.V11_of m (outs m) c main_v6 (by decide)).symm
  | ⟨1, _⟩ => ((((Mm.dat (F := F) (Vmid m) c).arrAt_in 1 rfl _).trans (Mm.A_eq (Vmid m) c 1)).trans (V10_eq m c main_v7).symm).trans (Gen.V11_of m (outs m) c main_v7 (by decide)).symm
  | ⟨2, _⟩ => ((((Mm.dat (F := F) (Vmid m) c).arrAt_in 2 rfl _).trans (Mm.A_eq (Vmid m) c 2)).trans (V10_eq m c main_v4).symm).trans (Gen.V11_of m (outs m) c main_v4 (by decide)).symm
  | ⟨3, _⟩ => (Vend_v8 m c).symm.trans (V11_eq m c main_v8).symm

set_option backward.isDefEq.respectTransparency.types false in
/-- The first call as a segment: entered from every unscoped buffer at the contents after the host operations,
    left with the weight matrix's buffer at what the write-backs leave; its invariant between points is the
    class invariant. -/
def reg0 : Pipeline.RegionSeg (pcfgs (F := F)) Gen.adm (pdats m) () defs₀ Variants.none L lv 0 :=
  Cert.LibRegion.regionSegHeldA (pcfgs (F := F)) Gen.adm (pdats m) defs₀ Variants.none L lv 0
    launch0.win.to₀ launch0.block_pos launch0.stage_whole rfl
    (fun c => (Dq.body_obligation (Vin m) c).loose)
    (fun c => rfl) (fun c => rfl) (fun c t => rfl) (fun c => rfl)
    (Gen.V9 m) (Gen.V10 m (outs m))
    (fun c => Cert.LibRegion.arrBufs_split_distinct cfg0 c (Dq.dat (F := F) (Vin m) c) launch0.win.arr_inj launch0.arr_whole
      ((Dq.dat (F := F) (Vin m) c).share_full fun _ => rfl) (fun b => Gen.V9 m c b) _ (fun w => Dq.A_eq (Vin m) c w))
    (fun c => Cert.LibRegion.arrBufs_join_distinct cfg0 c (Dq.dat (F := F) (Vin m) c) launch0.win.arr_inj launch0.arr_whole
      ((Dq.dat (F := F) (Vin m) c).share_full fun _ => rfl) (fun b => Gen.V10 m (outs m) c b) _ (hF0 m c))
    (fun c b hb => Gen.V10_of m (outs m) c b (by
      rw [List.mem_singleton]; rintro rfl
      exact hb (Finset.mem_image.mpr ⟨3, Finset.mem_univ _, rfl⟩)))

set_option backward.isDefEq.respectTransparency.types false in
/-- The second call as a segment: entered from the contents the first call left, left with the product's buffer at
    what the write-backs leave; its invariant carries the accumulator between points, is made of the class
    invariant at the first point and gives it back after the last. -/
def reg1 : Pipeline.RegionSeg (pcfgs (F := F)) Gen.adm (pdats m) () defs₀ Variants.none L lv 1 :=
  Cert.LibRegion.regionSegHeld (pcfgs (F := F)) Gen.adm (pdats m) defs₀ Variants.none L lv 1
    launch1.win.to₀ launch1.block_pos launch1.stage_whole rfl
    (fun c => Mm.body_obligation (Vmid m) c)
    (fun c => (Cert.LibRegion.ΦA_of (pcfgs (F := F)) Gen.adm 1 c).trans (Mm.hin (Vmid m) c))
    (fun c => (Mm.hout (Vmid m) c).trans (Cert.LibRegion.of_ΦA (pcfgs (F := F)) Gen.adm 1 c))
    (fun c t => rfl) (fun c => rfl)
    (Gen.V10 m (outs m)) (Gen.V11 m (outs m))
    (fun c => Cert.LibRegion.arrBufs_split_distinct cfg1 c (Mm.dat (F := F) (Vmid m) c) launch1.win.arr_inj launch1.arr_whole
      ((Mm.dat (F := F) (Vmid m) c).share_full fun _ => rfl) (fun b => Gen.V10 m (outs m) c b) _
      (fun w => (Mm.A_eq (Vmid m) c w).trans (V10_eq m c _).symm))
    (fun c => Cert.LibRegion.arrBufs_join_distinct cfg1 c (Mm.dat (F := F) (Vmid m) c) launch1.win.arr_inj launch1.arr_whole
      ((Mm.dat (F := F) (Vmid m) c).share_full fun _ => rfl) (fun b => Gen.V11 m (outs m) c b) _ (hF1 m c))
    (fun c b hb => Gen.V11_of m (outs m) c b (by
      rw [List.mem_singleton]; rintro rfl
      exact hb (Finset.mem_image.mpr ⟨3, Finset.mem_univ _, rfl⟩)))

/-! ## The launch -/

set_option backward.isDefEq.respectTransparency.types false in
/-- Every weakly fair execution of the program terminates, faults nowhere, and ends with the result buffer at
    `result` and every argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  -- the user algebra is the rounds ghost state alone; no level, no launch due, no ghost resource of the
  -- certificate's; beside the buffers every segment carries the generator register and the core owing nothing
  refine run_of_records m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := ?_) (E := fun _ c => Cert.LibRegion.R c) (hE0 := ?_) (hE2 := fun c => ?_)
    (R0 := reg0 m) (hpre0 := fun c => .rfl) (hpost0 := fun c => .rfl)
    (R1 := reg1 m) (hpre1 := fun c => .rfl) (hpost1 := fun c => .rfl)
  · -- the launch element is the pipeline library's own
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- each core keeps its generator register and its owing nothing
    refine Pipeline.initEach L lv fun c => ?_
    iintro ⟨⟨-, HO, -, Hp, -⟩, -⟩
    imodintro
    isplitl [Hp]; · iexists _; iexact Hp
    iexists ∅; iexact HO
  · iintro ⟨-, HO⟩
    iexact HO

end Cert.Kernel.Run

end
-- ==== Proof.DequantData.lean ====
/-
  The first kernel call: one tile of the dequantized weight matrix per grid point.

  The call's grid is 4 × 22; at point t it reads a 128 × 512 tile of the packed words, and the 8 × 512 tiles of the
  scales and of the zero points that belong to the same 1024 rows, and writes the 1024 × 512 tile
      w[8·a + s, n] = (float ((q[a, n] >>ₛ 4·s) &&& 15) − float z[(8·a + s) / 128, n]) · sc[(8·a + s) / 128, n]
  (cast to the narrow float format, the identity on the extended reals).  The tiles are stated here over the contents
  `V` the buffers hold when the call is entered: what each window's block is, what the body leaves in the output's
  staging buffer (the payload of its one store), and the record of these the pipeline rule takes.
-/
import proofs.«423540_j24867860644059_3_alg».proof.Proof.Gen.KernelIdeal.Launch
import proofs.«423540_j24867860644059_3_alg».proof.Proof.Gen.KernelIdeal.Skeleton
import proofs.«423540_j24867860644059_3_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.KernelIdeal.Dq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of packed words at point `t`. -/
abbrev qw (c : Dev nD) (t : Fin cfg0.N) : Vec F S128x512 .i32 := iblk V c 0 t
/-- The tile of scales at point `t`. -/
abbrev sc (c : Dev nD) (t : Fin cfg0.N) : Vec F S8x512 .f32 := iblk V c 1 t
/-- The tile of zero points at point `t`. -/
abbrev qz (c : Dev nD) (t : Fin cfg0.N) : Vec F S8x512 .i32 := iblk V c 2 t

/-- The dequantized tile point `t` writes back: the body's one stored value, of the three tiles it reads. -/
def tile (c : Dev nD) (t : Fin cfg0.N) : Vec F S1024x512 .bf16 := k0_pay1 (qw V c t) (sc V c t) (qz V c t)

/-- The record of the call on core `c`: the arrays as found; after the body each input's staging buffer still at
    its block and the output's at the dequantized tile; between points only the scoped buffers the call does not
    use and the generator register; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => tile V c t
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = tile V c t := by dsimp only [dat]

end Cert.KernelIdeal.Dq

end
-- ==== Proof.DequantBody.lean ====
/-
  The first kernel call's body, run at a grid point: from the three input tiles in their staging buffers it leaves
  the dequantized tile in the output's staging buffer and everything else as it was.
-/
import proofs.«423540_j24867860644059_3_alg».proof.Proof.DequantData
import Idealize.ShloMosaic.Lib.Pipeline.Value

set_option maxRecDepth 16384

noncomputable section

namespace Cert.KernelIdeal.Dq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks

An input window is never idle and its block is not cut; the body leaves it in place.  So at every point, fetched
there or not (unfetched, the block index has not moved), its current staging buffer holds its block. -/

theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body's one store

The store's rectangle is the whole 1024 × 512 buffer at zero offsets: it covers every index, and what it leaves
is its payload. -/

/-- The offsets of every access of the body are zero. -/
theorem off_zero : (![0, 0] : Fin 2 → Nat) = fun _ => 0 := funext fun a => by fin_cases a <;> rfl

/-- The rectangle of the store: the whole output tile. -/
abbrev rOut : Rect S1024x512 := Rect.unit (s := S1024x512) ![0, 0] S1024x512.size inb_S1024x512_S1024x512_0_0

/-- The one store covers the buffer. -/
theorem cover_out (p : Vec F S1024x512 .bf16) (y : S1024x512.Idx) :
    ∃ pc ∈ ([⟨rOut, p⟩] : List (View.Piece (Elt F) S1024x512 .bf16)), y ∈ pc.1.set :=
  ⟨_, List.mem_singleton_self _, View.mem_set_unit_zero (S := S1024x512) off_zero inb_S1024x512_S1024x512_0_0 y⟩

/-! ## The body's triple -/

set_option maxHeartbeats 1000000 in
/-- The kernel on whole staging memrefs, the inputs' at contents `x0`, `x1`, `x2` and the output's at anything, runs
    to the continuation holding the inputs' as they were and the output's at the payload of the three inputs: three
    whole-buffer loads read the contents, and the one whole-buffer store leaves its payload. -/
theorem sound_kernel (c : Dev nD) (E : Set ℕ) (i : grid0.Coords)
    (arg2 : Memref sig .tc .vmem S128x512 .i32) (harg2 : arg2.IsWhole)
    (arg3 : Memref sig .tc .vmem S8x512 .f32) (harg3 : arg3.IsWhole)
    (arg4 : Memref sig .tc .vmem S8x512 .i32) (harg4 : arg4.IsWhole)
    (arg5 : Memref sig .tc .vmem S1024x512 .bf16) (harg5 : arg5.IsWhole)
    (x0 : Vec F S128x512 .i32) (x1 : Vec F S8x512 .f32) (x2 : Vec F S8x512 .i32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k0_pay1 x0 x1 x2)) -∗ K ⟨⟩))
      ⊢ wp frame (wpE (defs₀ (F := F)) Variants.none c none) E
          (cc0__dequant_kernel i arg2 harg2 arg3 harg3 arg4 harg4 arg5 harg5) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- what the buffer reads after the covering store is the store's payload, of what the three loads read,
  rw [View.read_writes_eq_canon _ _ _ (cover_out _),
    View.canon_unit_zero (S := S1024x512) off_zero inb_S1024x512_S1024x512_0_0]
  -- and a load through the whole buffer reads its contents
  simp only [View.readAt_eq_ld, View.ld_unit_zero (S := S128x512) off_zero inb_S128x512_S128x512_0_0,
    View.ld_unit_zero (S := S8x512) off_zero inb_S8x512_S8x512_0_0]

/-! ## The body obligation, at a generic point -/

/-- What the body is called with at point `t`: the invariant, the core's dues, and each window's current staging
    buffer at what it then holds, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' staging buffers hold their blocks, so the kernel's triple applies at the
    three tiles; the invariant and the core's dues are the same before and after, and pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  unfold tile
  iintro ⟨HΦ, Ho, ⟨%d0, H0⟩, ⟨%d1, H1⟩, ⟨%d2, H2⟩, ⟨%d3, H3⟩⟩
  iapply (sound_kernel c Set.univ _ _ _ _ _ _ _ _ _ (qw V c t) (sc V c t) (qz V c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation for the body, at every grid point. -/
theorem body_obligation (c : Dev nD) : BodyObligation (dat (F := F) V c) (defs₀ (F := F)) Variants.none () Set.univ := fun t => by
  rw [bigSep_W0, bigSep_W0]
  exact sound_body V c t

end Cert.KernelIdeal.Dq

end
-- ==== Proof.MatmulData.lean ====
/-
  The second kernel call: the product of the activations with the dequantized weights, accumulated over two
  halves of the contracted axis, plus the bias.

  The call's grid is 8 × 8 × 2, the last coordinate k the half of the contracted axis.  At a point with k = 0 the
  body clears its accumulator (a buffer it keeps from point to point) and adds the product of the 1024 × 2048
  tile of activations with the 2048 × 1408 tile of weights; at a point with k = 1 it adds the second half's product
  to what the point before left, and writes accumulator + bias row to the output's staging buffer.  The output's
  staging buffer is written only at the points with k = 1, and its last column block runs past the array's last
  column: the write-back keeps the part inside.

  Stated here over the contents `V` the buffers hold when the call is entered: each window's block, the
  accumulator after each point, the tile written back, the invariant between points (the accumulator at its
  contents), and the record of these the pipeline rule takes.
-/
import proofs.«423540_j24867860644059_3_alg».proof.Proof.Gen.KernelIdeal.Launch
import proofs.«423540_j24867860644059_3_alg».proof.Proof.Gen.KernelIdeal.Skeleton
import proofs.«423540_j24867860644059_3_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of activations at point `t`. -/
abbrev xb (c : Dev nD) (t : Fin cfg1.N) : Vec F S1024x2048 .bf16 := iblk V c 0 t
/-- The tile of weights at point `t`. -/
abbrev wb (c : Dev nD) (t : Fin cfg1.N) : Vec F S2048x1408 .bf16 := iblk V c 1 t
/-- The bias row's tile at point `t`. -/
abbrev bb (c : Dev nD) (t : Fin cfg1.N) : Vec F S1x1408 .f32 := iblk V c 2 t

/-- The accumulator after a point that starts a contraction: zero plus that point's product. -/
def half (c : Dev nD) (t : Fin cfg1.N) : Vec F S1024x1408 .f32 := k1_pay2 k1_pay1 (xb V c t) (wb V c t)

/-- The accumulator after point `n`: at an even point (k = 0) the first half's product over zero, at an odd point
    (k = 1) the second half's product over what the point before left. -/
def accAt (c : Dev nD) (n : ℕ) (h : n < cfg1.N) : Vec F S1024x1408 .f32 :=
  if n % 2 = 0 then half V c ⟨n, h⟩
  else k1_pay2 (half V c ⟨n - 1, Nat.lt_of_le_of_lt (Nat.sub_le _ _) h⟩) (xb V c ⟨n, h⟩) (wb V c ⟨n, h⟩)

/-- The tile a point with k = 1 writes to the output's staging buffer: the accumulator plus the bias row. -/
def outTile (c : Dev nD) (t : Fin cfg1.N) : Vec F S1024x1408 .f32 := k1_pay3 (accAt V c t.val t.isLt) (bb V c t)

/-- The accumulator: the call's one scratch operand. -/
abbrev scM : Memref sig .tc .vmem S1024x1408 .f32 := Memref.whole cc1_scratch0

/-- The scoped buffers the call does not touch (the first call's staging buffers), each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The invariant before position `n`: before the first point every scoped buffer at anything; afterwards the
    accumulator at what the point before left in it, the other scoped buffers at anything, and the generator
    register at some state. -/
def PhiS (c : Dev nD) : (n : ℕ) → n ≤ cfg1.N → sProp 𝕄
  | 0, _ => Pipeline.ΦA spec1 c
  | n + 1, hn => iprop(iprop(others (F := F) c ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(others (F := F) c ∗ owns (c : Thread nD τ) scM fullShare (accAt V c n hn)) ∗ (∃ r, prngReg c r)) := rfl

theorem PhiS_pos (c : Dev nD) (n : ℕ) (h : n ≤ cfg1.N) (hz : n ≠ 0) :
    PhiS V c n h = iprop(iprop(others (F := F) c ∗ owns (c : Thread nD τ) scM fullShare (accAt V c (n - 1) (by omega))) ∗ (∃ r, prngReg c r)) := by
  cases n with
  | zero => exact absurd rfl hz
  | succ n => rfl

/-- The record of the call on core `c`: the arrays as found; after the body each input's staging buffer still at
    its block and the output's at accumulator + bias; between points the invariant above; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outTile V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outTile V c t := by dsimp only [dat]

theorem Phi_castSucc (c : Dev nD) (t : Fin cfg1.N) :
    (dat V c).Φ t.castSucc = PhiS V c t.val (Nat.le_of_lt t.isLt) := by
  dsimp only [dat]; simp only [Fin.coe_castSucc]

theorem Phi_succ (c : Dev nD) (t : Fin cfg1.N) :
    (dat V c).Φ t.succ = PhiS V c (t.val + 1) t.isLt := rfl

end Cert.KernelIdeal.Mm

end
-- ==== Proof.MatmulBody.lean ====
/-
  The second kernel call's body, run at a grid point: at a point that starts a contraction it clears the accumulator
  and adds the first half's product; at a point that ends one it adds the second half's product to what the point
  before left and writes accumulator + bias to the output's staging buffer.
-/
import proofs.«423540_j24867860644059_3_alg».proof.Proof.MatmulData
import Idealize.ShloMosaic.Lib.Pipeline.Value

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions over the grid, and where the output's window is idle -/

/-- The first conditional's condition (the last coordinate is 0), from the grid coordinates. -/
abbrev cond1 (i : grid1.Coords) : Prop := (Scalar.cmpi .ne (Scalar.extui (Scalar.cmpi .eq (BitVec.ofNat 32 (i 2).val) 0#32)) 0#32) = 1#1
/-- It holds at the even points. -/
theorem hcond1 : ∀ t : Fin cfg1.N, cond1 (grid1.coords t) ↔ t.val % 2 = 0 :=
  (by decide +kernel : ∀ t : Fin grid1.N, cond1 (grid1.coords t) ↔ t.val % 2 = 0)
/-- The second conditional's condition (the last coordinate is 1). -/
abbrev cond2 (i : grid1.Coords) : Prop := k1_cond2 i = 1#1
/-- It holds at the odd points. -/
theorem hcond2 : ∀ t : Fin cfg1.N, cond2 (grid1.coords t) ↔ t.val % 2 = 1 :=
  (by decide +kernel : ∀ t : Fin grid1.N, cond2 (grid1.coords t) ↔ t.val % 2 = 1)

/-- The three inputs' windows are never idle. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- The output's window is idle at the even points, -/
theorem idle_3_even : ∀ t : Fin cfg1.N, t.val % 2 = 0 → cfg1.idle 3 (grid1.coords t) = true := by decide +kernel
/-- live at the odd ones, -/
theorem live_3_odd : ∀ t : Fin cfg1.N, t.val % 2 = 1 → cfg1.idle 3 (grid1.coords t) = false := by decide +kernel
/-- and not written back at the even ones. -/
theorem noflush_3_even (t : Fin cfg1.N) (h : t.val % 2 = 0) : (cfg1.win 3).flush t = false := by
  cases hf : (cfg1.win 3).flush t with
  | false => rfl
  | true => have := (flush1_3 t).mp hf; omega

/-! ## What the call is handed, with the accumulator apart -/

/-- What the call is handed gives the other scoped buffers, the accumulator at some contents, and the generator register. -/
theorem PhiA_in (c : Dev nD) :
    (Pipeline.ΦA spec1 c : sProp 𝕄) ⊢ iprop(iprop(others (F := F) c ∗ (∃ d, owns (c : Thread nD τ) scM fullShare d)) ∗ (∃ r, prngReg c r)) := by
  unfold Pipeline.ΦA; rw [scopedRest1_eq]; simp only [scM, owns_whole]; unfold others
  iintro ⟨⟨H1, H2, H3, H4, H5, H6, H7, H8, HS⟩, Hg⟩
  isplitl [H1 H2 H3 H4 H5 H6 H7 H8 HS]
  · isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iexact HS
  · iexact Hg

/-- And those give back what the call was handed. -/
theorem PhiA_out (c : Dev nD) :
    iprop(iprop(others (F := F) c ∗ (∃ d, owns (c : Thread nD τ) scM fullShare d)) ∗ (∃ r, prngReg c r)) ⊢ (Pipeline.ΦA spec1 c : sProp 𝕄) := by
  unfold Pipeline.ΦA; rw [scopedRest1_eq]; simp only [scM, owns_whole]; unfold others
  iintro ⟨⟨⟨H1, H2, H3, H4, H5, H6, H7, H8⟩, HS⟩, Hg⟩
  isplitl [H1 H2 H3 H4 H5 H6 H7 H8 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  · iexact Hg

/-! ## Each input's staging buffer holds its block at every point -/

/-- The activations' buffer holds the tile, fetched there or not. -/
theorem before_0 (c : Dev nD) (t : Fin cfg1.N) (d) : (dat (F := F) V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The weights' buffer likewise. -/
theorem before_1 (c : Dev nD) (t : Fin cfg1.N) (d) : (dat (F := F) V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- The bias row's buffer likewise: at an odd point it is not fetched and its block index has not moved. -/
theorem before_2 (c : Dev nD) (t : Fin cfg1.N) (d) : (dat (F := F) V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body's two runs, over any whole staging buffers -/

/-- A whole-buffer access starts at offset zero along both axes. -/
theorem hz2 : (![0, 0] : Fin 2 → ℕ) = fun _ => 0 := by funext a; fin_cases a <;> rfl

set_option maxHeartbeats 1000000 in
/-- The body at a point that starts a contraction (first conditional taken, second not): from the three inputs'
    buffers at their tiles, the output's buffer at what it holds and the accumulator at anything, it runs to the
    same with the accumulator at zero plus the product of the two tiles: the accumulator is cleared, read back,
    and stored whole. -/
theorem run_even (c : Dev nD) (i : grid1.Coords)
    (arg3 : Memref sig .tc .vmem S1024x2048 .bf16) (harg3 : arg3.IsWhole) (arg4 : Memref sig .tc .vmem S2048x1408 .bf16) (harg4 : arg4.IsWhole)
    (arg5 : Memref sig .tc .vmem S1x1408 .f32) (harg5 : arg5.IsWhole) (arg6 : Memref sig .tc .vmem S1024x1408 .f32) (harg6 : arg6.IsWhole)
    (arg7 : Memref sig .tc .vmem S1024x1408 .f32) (harg7 : arg7.IsWhole) (hc1 : cond1 i) (hc2 : ¬cond2 i)
    (x : Vec F S1024x2048 .bf16) (w : Vec F S2048x1408 .bf16) (b : Vec F S1x1408 .f32) (o : Vec F S1024x1408 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k1_pay2 k1_pay1 x w)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc1 | exact hc2)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  rw [View.read_writes_eq_canon _ _ _ (fun y => ⟨_, List.mem_cons_self, View.mem_set_unit_zero hz2 inb_S1024x1408_S1024x1408_0_0 y⟩)]
  sl_unfold_words
  rw [View.canon_cons_unit_zero hz2, View.readCov_unit_zero _ hz2]
  simp only [View.readAt_eq_ld, hf3, hf4, View.ld_unit_zero (S := S1024x2048) hz2, View.ld_unit_zero (S := S2048x1408) hz2]

set_option maxHeartbeats 1000000 in
/-- The body at a point that ends a contraction (first conditional not taken, second taken): from the three inputs'
    buffers at their tiles, the output's buffer at anything and the accumulator at what the point before left, it
    runs to the accumulator at that plus the product of the two tiles, stored whole, and the output's buffer at the
    new accumulator, read back, plus the bias row, stored whole. -/
theorem run_odd (c : Dev nD) (i : grid1.Coords)
    (arg3 : Memref sig .tc .vmem S1024x2048 .bf16) (harg3 : arg3.IsWhole) (arg4 : Memref sig .tc .vmem S2048x1408 .bf16) (harg4 : arg4.IsWhole)
    (arg5 : Memref sig .tc .vmem S1x1408 .f32) (harg5 : arg5.IsWhole) (arg6 : Memref sig .tc .vmem S1024x1408 .f32) (harg6 : arg6.IsWhole)
    (arg7 : Memref sig .tc .vmem S1024x1408 .f32) (harg7 : arg7.IsWhole) (hc1 : ¬cond1 i) (hc2 : cond2 i)
    (x : Vec F S1024x2048 .bf16) (w : Vec F S2048x1408 .bf16) (b : Vec F S1x1408 .f32) (a : Vec F S1024x1408 .f32)
    (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 a x w) b) ∗ owns (c : Thread nD τ) arg7 fullShare (k1_pay2 a x w)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact hc1 | exact hc2)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (fun y => ⟨_, List.mem_cons_self, View.mem_set_unit_zero hz2 inb_S1024x1408_S1024x1408_0_0 y⟩)]
    rw [View.canon_unit_zero hz2, View.readCov_unit_zero _ hz2]
    simp only [View.readAt_eq_ld, hf3, hf4, hf5, hf7, View.ld_unit_zero (S := S1024x2048) hz2, View.ld_unit_zero (S := S2048x1408) hz2, View.ld_unit_zero (S := S1024x1408) hz2, View.ld_unit_zero (S := S1x1408) hz2]
  iexists _; isplitr
  swap; · iexact H7
  ipureintro
  sl_unfold_words
  rw [View.read_writes_eq_canon _ _ _ (fun y => ⟨_, List.mem_cons_self, View.mem_set_unit_zero hz2 inb_S1024x1408_S1024x1408_0_0 y⟩)]
  rw [View.canon_unit_zero hz2]
  simp only [View.readAt_eq_ld, hf3, hf4, hf5, hf7, View.ld_unit_zero (S := S1024x2048) hz2, View.ld_unit_zero (S := S2048x1408) hz2, View.ld_unit_zero (S := S1024x1408) hz2, View.ld_unit_zero (S := S1x1408) hz2]

/-! ## The accumulator's two steps -/

/-- After a point that starts a contraction the accumulator is zero plus that point's product. -/
theorem accAt_even (c : Dev nD) (t : Fin cfg1.N) (h : t.val % 2 = 0) :
    accAt V c t.val t.isLt = k1_pay2 k1_pay1 (xb V c t) (wb V c t) := by
  unfold accAt; rw [if_pos h]; rfl

/-- After a point that ends one it is what the point before left plus this point's product. -/
theorem accAt_odd (c : Dev nD) (t : Fin cfg1.N) (h : t.val % 2 = 1) :
    accAt V c t.val t.isLt = k1_pay2 (accAt V c (t.val - 1) (Nat.lt_of_le_of_lt (Nat.sub_le _ _) t.isLt)) (xb V c t) (wb V c t) := by
  have h0 : ¬ t.val % 2 = 0 := by omega
  have h1 : (t.val - 1) % 2 = 0 := by omega
  unfold accAt; rw [if_neg h0, if_pos h1]

/-! ## The body obligation, at a generic point -/

/-- What the body is called with at point `t`, the windows one by one, -/
def bodyPre (c : Dev nD) (t : Fin cfg1.N) : sProp 𝕄 :=
  iprop((dat (F := F) V c).Φ t.castSucc ∗ (dat (F := F) V c).owesAt () t.castSucc
    ∗ (∃ d, owns (c : Thread nD τ) (st1_0 t) fullShare ((dat (F := F) V c).before 0 t d))
    ∗ (∃ d, owns (c : Thread nD τ) (st1_1 t) fullShare ((dat (F := F) V c).before 1 t d))
    ∗ (∃ d, owns (c : Thread nD τ) (st1_2 t) fullShare ((dat (F := F) V c).before 2 t d))
    ∗ (∃ d, owns (c : Thread nD τ) (st1_3 t) fullShare ((dat (F := F) V c).before 3 t d)))

/-- and what it returns. -/
def bodyPost (c : Dev nD) (t : Fin cfg1.N) : sProp 𝕄 :=
  iprop((dat (F := F) V c).Φ t.succ ∗ (dat (F := F) V c).owesAt () t.succ
    ∗ (dat (F := F) V c).leavesExact 0 t
    ∗ (dat (F := F) V c).leavesExact 1 t
    ∗ (dat (F := F) V c).leavesExact 2 t
    ∗ (dat (F := F) V c).leavesExact 3 t)

set_option maxHeartbeats 4800000 in
/-- The body at any point: each input's buffer holds its tile; the closed forms say whether the point starts a
    contraction or ends one. At a start the invariant hands the accumulator at anything (the first point) or at what
    the point before left, the output's buffer is handed back as found, and the accumulator is left at zero plus the
    product. At an end the accumulator comes in at what the point before left and goes out at that plus the product,
    and the output's buffer goes out at the new accumulator plus the bias row. The core owes nothing throughout. -/
theorem sound_body (c : Dev nD) (t : Fin cfg1.N) :
    bodyPre (F := F) V c t ⊢ wp frame (wpE (defs₀ (F := F)) Variants.none c none) Set.univ (bodyAt1 t) (fun _ => bodyPost (F := F) V c t) := by
  unfold bodyPre bodyPost bodyAt1
  simp only [before_0, before_1, before_2]
  rw [show (dat V c).owesAt () t.succ = (dat V c).owesAt () t.castSucc from rfl]
  rw [Phi_succ, PhiS_succ]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  rw [show (dat V c).leavesExact 2 t = owns (c : Thread nD τ) (st1_2 t) fullShare ((dat V c).after 2 t) from by
    unfold Dat.leavesExact; rw [live_2 t], after_2]
  have hN : t.val < 128 := lt_of_lt_of_eq t.isLt (show cfg1.N = 128 from N_1)
  by_cases h : t.val % 2 = 0
  · have hc1 : cond1 (grid1.coords t) := (hcond1 t).mpr h
    have hc2 : ¬cond2 (grid1.coords t) := fun hc => by have := (hcond2 t).mp hc; omega
    rw [Dat.leavesExact_idle (dat V c) 3 t (idle_3_even t h) (noflush_3_even t h)]
    rw [accAt_even V c t h]
    by_cases hz : t.val = 0
    · rw [Phi_castSucc, PhiS_zero V c _ _ hz]
      refine (sep_mono (PhiA_in c) .rfl).trans ?_
      iintro ⟨⟨⟨Hoth, HS⟩, Hg⟩, Ho, ⟨%d0, H0⟩, ⟨%d1, H1⟩, ⟨%d2, H2⟩, ⟨%d3, H3⟩⟩
      iapply (run_even c (grid1.coords t) _ _ _ _ _ _ _ _ _ _ hc1 hc2 (iblk V c 0 t) (iblk V c 1 t) (iblk V c 2 t) ((dat V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth HS]
        · isplitl [Hoth]; · iexact Hoth
          iexact HS
        · iexact Hg
      isplitl [Ho]; · iexact Ho
      isplitl [H0]; · iexact H0
      isplitl [H1]; · iexact H1
      isplitl [H2]; · iexact H2
      iexists _; iexact H3
    · rw [Phi_castSucc, PhiS_pos V c _ _ hz]
      iintro ⟨⟨⟨Hoth, HS⟩, Hg⟩, Ho, ⟨%d0, H0⟩, ⟨%d1, H1⟩, ⟨%d2, H2⟩, ⟨%d3, H3⟩⟩
      iapply (run_even c (grid1.coords t) _ _ _ _ _ _ _ _ _ _ hc1 hc2 (iblk V c 0 t) (iblk V c 1 t) (iblk V c 2 t) ((dat V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hoth HS Hg]
      · isplitl [Hoth HS]
        · isplitl [Hoth]; · iexact Hoth
          iexact HS
        · iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    have hc1 : ¬cond1 (grid1.coords t) := fun hc => h ((hcond1 t).mp hc)
    have hc2 : cond2 (grid1.coords t) := (hcond2 t).mpr h1
    rw [show (dat V c).leavesExact 3 t = owns (c : Thread nD τ) (st1_3 t) fullShare ((dat V c).after 3 t) from by
      unfold Dat.leavesExact; rw [live_3_odd t h1], after_3]
    unfold outTile
    rw [accAt_odd V c t h1]
    rw [Phi_castSucc, PhiS_pos V c _ _ hz]
    iintro ⟨⟨⟨Hoth, HS⟩, Hg⟩, Ho, ⟨%d0, H0⟩, ⟨%d1, H1⟩, ⟨%d2, H2⟩, ⟨%d3, H3⟩⟩
    iapply (run_odd c (grid1.coords t) _ _ _ _ _ _ _ _ _ _ hc1 hc2 (iblk V c 0 t) (iblk V c 1 t) (iblk V c 2 t)
      (accAt V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [Hoth HS Hg]
    · isplitl [Hoth HS]
      · isplitl [Hoth]; · iexact Hoth
        iexact HS
      · iexact Hg
    isplitl [Ho]; · iexact Ho
    isplitl [H0]; · iexact H0
    isplitl [H1]; · iexact H1
    isplitl [H2]; · iexact H2
    iexact H3

/-- The library's exact body obligation, at every point: the output's buffer is stored whole wherever it is written
    back, so it holds the named tile outright. -/
theorem body_obligation_exact (c : Dev nD) : BodyObligation (dat (F := F) V c) (defs₀ (F := F)) Variants.none () Set.univ := fun t => by
  rw [bigSep_W1, bigSep_W1]
  exact sound_body V c t

/-- The pipeline rule's obligation for the body, at every grid point, in the form for a window whose last block
    runs past its array (the output's staging buffer is described on the part the write-back moves). -/
theorem body_obligation (c : Dev nD) : Pipeline.BodyObligationLoose (dat (F := F) V c) (defs₀ (F := F)) Variants.none () Set.univ :=
  (body_obligation_exact V c).loose

/-- What the call is handed at entry is the invariant before the first point. -/
theorem hin (c : Dev nD) : (Pipeline.ΦA spec1 c : sProp 𝕄) ⊢ (dat (F := F) V c).Φ 0 := by
  rw [show (dat V c).Φ 0 = PhiS V c 0 (Nat.zero_le _) from rfl, PhiS_zero V c 0 _ rfl]

/-- After the last point the invariant gives back what the call was handed: the accumulator's contents are forgotten. -/
theorem hout (c : Dev nD) : (dat (F := F) V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  refine .trans ?_ (PhiA_out c)
  iintro ⟨⟨Hoth, HS⟩, Hg⟩
  isplitl [Hoth HS]
  · isplitl [Hoth]; · iexact Hoth
    iexists _; iexact HS
  iexact Hg

end Cert.KernelIdeal.Mm

end
-- ==== Proof.Launch.lean ====
/-
  The whole program's run: the host operations before the two kernel calls, the first call (which fills the
  dequantized weight matrix), the second call (which fills the product), and the final reshape.  The buffers'
  contents at each boundary are named, so that the result buffer's final contents are stated in terms of what the
  two calls' write-backs leave.
-/
import proofs.«423540_j24867860644059_3_alg».proof.Proof.Gen.KernelIdeal.Regions
import proofs.«423540_j24867860644059_3_alg».proof.Proof.DequantBody
import proofs.«423540_j24867860644059_3_alg».proof.Proof.MatmulBody
import proofs.«423540_j24867860644059_3_alg».proof.Proof.LibRegion

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The buffers' contents on core `c` when the first call is entered: the launch contents after the host
    operations before it. -/
abbrev Vin (c : Dev nD) (b : Ref sig .tc) : Buf (Elt F) ((c : Thread nD τ).loc b) := Gen.V9 m c b

/-- The buffers' contents when the second call is entered: as before, but the weight matrix's buffer at what the
    first call's write-backs leave. -/
def Vmid (c : Dev nD) (b : Ref sig .tc) : Buf (Elt F) ((c : Thread nD τ).loc b) :=
  Function.update (Gen.V9 m c) main_v7 ((Dq.dat (F := F) (Vin m) c).arrAt 3 cfg0.N) b

theorem Vmid_v7 (c : Dev nD) : Vmid m c main_v7 = (Dq.dat (F := F) (Vin m) c).arrAt 3 cfg0.N := by
  unfold Vmid
  exact Function.update_self _ _ _

theorem Vmid_of_ne (c : Dev nD) (b : Ref sig .tc) (h : b ∉ ([main_v7] : List (Ref sig .tc))) : Vmid m c b = Vin m c b := by
  unfold Vmid
  exact Function.update_of_ne (StableHlo.devRef_ne_of_ne (List.ne_of_not_mem_cons h) : (Proc.devRef .tc b : DevRef τ sig) ≠ Proc.devRef .tc main_v7) _ _

/-- The buffers' contents when the second call is left: as it was entered, but the product's buffer at what the
    second call's write-backs leave. -/
def Vend (c : Dev nD) (b : Ref sig .tc) : Buf (Elt F) ((c : Thread nD τ).loc b) :=
  Function.update (fun d : DevRef τ sig => Function.update (Gen.V9 m c) main_v7 ((Dq.dat (F := F) (Vin m) c).arrAt 3 cfg0.N) d)
    main_v8 ((Mm.dat (F := F) (Vmid m) c).arrAt 3 cfg1.N) b

theorem Vend_v8 (c : Dev nD) : Vend m c main_v8 = (Mm.dat (F := F) (Vmid m) c).arrAt 3 cfg1.N := by
  unfold Vend
  exact Function.update_self _ _ _

theorem Vend_of_ne (c : Dev nD) (b : Ref sig .tc) (h : b ∉ ([main_v8] : List (Ref sig .tc))) : Vend m c b = Vmid m c b := by
  unfold Vend Vmid
  exact Function.update_of_ne (StableHlo.devRef_ne_of_ne (List.ne_of_not_mem_cons h) : (Proc.devRef .tc b : DevRef τ sig) ≠ Proc.devRef .tc main_v8) _ _

/-- What the two calls leave in the buffers they may change: the first in the weight matrix's, the second in the
    product's. -/
def outs : Gen.Outs (F := F) := fun J r c => if J = 10 then Vmid m c r else Vend m c r

/-- After the first call the buffers hold what the second call is entered with. -/
theorem V10_eq (c : Dev nD) (b : Ref sig .tc) : Gen.V10 m (outs m) c b = Vmid m c b := by
  show Function.update (Gen.V9 m c) main_v7 (outs m 10 main_v7 c) b = Vmid m c b
  rw [show outs m 10 main_v7 c = Vmid m c main_v7 from if_pos rfl, Vmid_v7]
  rfl

/-- After the second call the buffers hold `Vend`. -/
theorem V11_eq (c : Dev nD) (b : Ref sig .tc) : Gen.V11 m (outs m) c b = Vend m c b := by
  show Function.update (Function.update (Gen.V9 m c) main_v7 (outs m 10 main_v7 c)) main_v8 (outs m 11 main_v8 c) b = Vend m c b
  rw [show outs m 10 main_v7 c = Vmid m c main_v7 from if_pos rfl, Vmid_v7,
    show outs m 11 main_v8 c = Vend m c main_v8 from if_neg (by decide), Vend_v8]
  rfl

/-- The result buffer's final contents. -/
def result (c : Dev nD) : Buf (Elt F) ((c : Thread nD τ).loc main_v9) :=
  Gen.V12 m (outs m) c main_v9

/-- The result is the product array the second call's write-backs leave, reshaped. -/
theorem result_eq (c : Dev nD) :
    result m c = shapeCast S4x2048x11008 ((Mm.dat (F := F) (Vmid m) c).arrAt 3 cfg1.N) shapeCasts_S8192x11008_S4x2048x11008 := by
  unfold result
  show StableHlo.after Gen.hostOps2 (Gen.V11 m (outs m) c) (Proc.devRef .tc main_v9) = _
  after_results
  rw [show Gen.V11 m (outs m) c (Proc.devRef .tc main_v8) = Vend m c main_v8 from V11_eq m c main_v8, Vend_v8]
  rfl

/-! ## The run from the two calls' records -/

set_option backward.isDefEq.respectTransparency.types false in
/-- The run, given the two calls' segment records: as the frame claim over those records, with the result buffer
    read off the last boundary's contents beside the arguments. Every weakly fair execution from memory `m` with
    zero counters terminates; every final memory holds the result buffer at the last contents and each argument as
    launched. -/
theorem run_of_records {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : Pipeline.RegionSeg (pcfgs (F := F)) Gen.adm pdats ι defs₀ 𝒱₀ L lv 0)
    (hpre0 : ∀ c : Dev nD, iprop(StableHlo.held (c : Thread nD τ) (Pipeline.ucRefs τ sig) (Gen.V9 m c) ∗ E 0 c) ⊢ R0.pre c)
    (hpost0 : ∀ c : Dev nD, R0.post c ⊢ iprop(StableHlo.held (c : Thread nD τ) (Pipeline.ucRefs τ sig) (Gen.V10 m outs c) ∗ E 1 c))
    (R1 : Pipeline.RegionSeg (pcfgs (F := F)) Gen.adm pdats ι defs₀ 𝒱₀ L lv 1)
    (hpre1 : ∀ c : Dev nD, iprop(StableHlo.held (c : Thread nD τ) (Pipeline.ucRefs τ sig) (Gen.V10 m outs c) ∗ E 1 c) ⊢ R1.pre c)
    (hpost1 : ∀ c : Dev nD, R1.post c ⊢ iprop(StableHlo.held (c : Thread nD τ) (Pipeline.ucRefs τ sig) (Gen.V11 m outs c) ∗ E 2 c)) :
    θ_run defs (onTc (τ := τ) (main (F := F))) ⟨m, fun _ => 0, ρ⟩ (fun r => ∀ c : Dev nD,
      r.2.mem ((c.tc : Thread nD τ).loc main_v9) = Gen.V12 m outs c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Pipeline.Seg.run_eq_chain,
        show (Gen.segs m outs 𝒱₀ L lv E ι pdats R0 R1 c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V12 m outs c))
    (hch := fun c => ⟨.rfl, .rfl, .rfl, .rfl, .rfl, .rfl, .rfl, .rfl, .rfl, hpre0 c, (hpost0 c).trans (hpre1 c), hpost1 c, sep_mono .rfl (hE2 c)⟩)
    (hinit := ?_) (QY := fun c s => s.mem ((c.tc : Thread nD τ).loc main_v9) = Gen.V12 m outs c main_v9 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last contents
    unfold StableHlo.held
    iintro ⟨Hh, HSI⟩
    ihave Hr := (pointsTo_read_all (Pipeline.ucRefs τ sig) (fun b => ((c : Thread nD τ).1, b)) (Gen.V12 m outs c) s') $$ [Hh HSI]
    · isplitl [Hh] <;> iassumption
    icases Hr with ⟨%h, HSI⟩
    imodintro
    isplitr
    · ipureintro
      exact ⟨h (Proc.devRef .tc main_v9) (Finset.mem_filter.mpr ⟨StableHlo.devRef_mem_tcRefs main_v9, by decide⟩),
        (h (Proc.devRef .tc main_arg0) (Finset.mem_filter.mpr ⟨StableHlo.devRef_mem_tcRefs main_arg0, by decide⟩)).trans (Gen.V12_main_arg0 m outs c),
        (h (Proc.devRef .tc main_arg1) (Finset.mem_filter.mpr ⟨StableHlo.devRef_mem_tcRefs main_arg1, by decide⟩)).trans (Gen.V12_main_arg1 m outs c),
        (h (Proc.devRef .tc main_arg2) (Finset.mem_filter.mpr ⟨StableHlo.devRef_mem_tcRefs main_arg2, by decide⟩)).trans (Gen.V12_main_arg2 m outs c),
        (h (Proc.devRef .tc main_arg3) (Finset.mem_filter.mpr ⟨StableHlo.devRef_mem_tcRefs main_arg3, by decide⟩)).trans (Gen.V12_main_arg3 m outs c),
        (h (Proc.devRef .tc main_arg4) (Finset.mem_filter.mpr ⟨StableHlo.devRef_mem_tcRefs main_arg4, by decide⟩)).trans (Gen.V12_main_arg4 m outs c)⟩
    · iexact HSI

/-! ## The two calls as segments -/

/-- Each call's record, at the contents the call is entered with. -/
def pdats : (p : Fin 2) → (c : Dev nD) → Dat τ (Elt F) Unit ℕ (UR sig nD τ) ℕ (Pipeline.pin (pcfgs (F := F)) Gen.adm p) c
  | ⟨0, _⟩ => fun c => Dq.dat (Vin m) c
  | ⟨1, _⟩ => fun c => Mm.dat (Vmid m) c

/-- No core owes another anything: no level is assigned. -/
abbrev L : GSem nD τ sig → Finset Unit := fun _ => ∅
abbrev lv : GSem nD τ sig → Unit → ℕ := fun _ _ => 0

/-- When the first call is left, each of its arrays holds what the boundary's contents name for it: the inputs
    were never written, the weight matrix is at what the write-backs leave. -/
theorem hF0 (c : Dev nD) : ∀ w : Fin cfg0.W,
    (Dq.dat (F := F) (Vin m) c).arrAt w cfg0.N = Gen.V10 m (outs m) c (Pipeline.arrRef spec0 w)
  | ⟨0, _⟩ => (((Dq.dat (F := F) (Vin m) c).arrAt_in 0 rfl _).trans (Dq.A_eq (Vin m) c 0)).trans (Gen.V10_of m (outs m) c main_v0 (by decide)).symm
  | ⟨1, _⟩ => (((Dq.dat (F := F) (Vin m) c).arrAt_in 1 rfl _).trans (Dq.A_eq (Vin m) c 1)).trans (Gen.V10_of m (outs m) c main_v1 (by decide)).symm
  | ⟨2, _⟩ => (((Dq.dat (F := F) (Vin m) c).arrAt_in 2 rfl _).trans (Dq.A_eq (Vin m) c 2)).trans (Gen.V10_of m (outs m) c main_v2 (by decide)).symm
  | ⟨3, _⟩ => (Vmid_v7 m c).symm.trans (V10_eq m c main_v7).symm

/-- When the second call is left, each of its arrays holds what the boundary's contents name for it. -/
theorem hF1 (c : Dev nD) : ∀ w : Fin cfg1.W,
    (Mm.dat (F := F) (Vmid m) c).arrAt w cfg1.N = Gen.V11 m (outs m) c (Pipeline.arrRef spec1 w)
  | ⟨0, _⟩ => ((((Mm.dat (F := F) (Vmid m) c).arrAt_in 0 rfl _).trans (Mm.A_eq (Vmid m) c 0)).trans (V10_eq m c main_v6).symm).trans (Gen.V11_of m (outs m) c main_v6 (by decide)).symm
  | ⟨1, _⟩ => ((((Mm.dat (F := F) (Vmid m) c).arrAt_in 1 rfl _).trans (Mm.A_eq (Vmid m) c 1)).trans (V10_eq m c main_v7).symm).trans (Gen.V11_of m (outs m) c main_v7 (by decide)).symm
  | ⟨2, _⟩ => ((((Mm.dat (F := F) (Vmid m) c).arrAt_in 2 rfl _).trans (Mm.A_eq (Vmid m) c 2)).trans (V10_eq m c main_v4).symm).trans (Gen.V11_of m (outs m) c main_v4 (by decide)).symm
  | ⟨3, _⟩ => (Vend_v8 m c).symm.trans (V11_eq m c main_v8).symm

set_option backward.isDefEq.respectTransparency.types false in
/-- The first call as a segment: entered from every unscoped buffer at the contents after the host operations,
    left with the weight matrix's buffer at what the write-backs leave; its invariant between points is the
    class invariant. -/
def reg0 : Pipeline.RegionSeg (pcfgs (F := F)) Gen.adm (pdats m) () defs₀ Variants.none L lv 0 :=
  Cert.LibRegion.regionSegHeldA (pcfgs (F := F)) Gen.adm (pdats m) defs₀ Variants.none L lv 0
    launch0.win.to₀ launch0.block_pos launch0.stage_whole rfl
    (fun c => (Dq.body_obligation (Vin m) c).loose)
    (fun c => rfl) (fun c => rfl) (fun c t => rfl) (fun c => rfl)
    (Gen.V9 m) (Gen.V10 m (outs m))
    (fun c => Cert.LibRegion.arrBufs_split_distinct cfg0 c (Dq.dat (F := F) (Vin m) c) launch0.win.arr_inj launch0.arr_whole
      ((Dq.dat (F := F) (Vin m) c).share_full fun _ => rfl) (fun b => Gen.V9 m c b) _ (fun w => Dq.A_eq (Vin m) c w))
    (fun c => Cert.LibRegion.arrBufs_join_distinct cfg0 c (Dq.dat (F := F) (Vin m) c) launch0.win.arr_inj launch0.arr_whole
      ((Dq.dat (F := F) (Vin m) c).share_full fun _ => rfl) (fun b => Gen.V10 m (outs m) c b) _ (hF0 m c))
    (fun c b hb => Gen.V10_of m (outs m) c b (by
      rw [List.mem_singleton]; rintro rfl
      exact hb (Finset.mem_image.mpr ⟨3, Finset.mem_univ _, rfl⟩)))

set_option backward.isDefEq.respectTransparency.types false in
/-- The second call as a segment: entered from the contents the first call left, left with the product's buffer at
    what the write-backs leave; its invariant carries the accumulator between points, is made of the class
    invariant at the first point and gives it back after the last. -/
def reg1 : Pipeline.RegionSeg (pcfgs (F := F)) Gen.adm (pdats m) () defs₀ Variants.none L lv 1 :=
  Cert.LibRegion.regionSegHeld (pcfgs (F := F)) Gen.adm (pdats m) defs₀ Variants.none L lv 1
    launch1.win.to₀ launch1.block_pos launch1.stage_whole rfl
    (fun c => Mm.body_obligation (Vmid m) c)
    (fun c => (Cert.LibRegion.ΦA_of (pcfgs (F := F)) Gen.adm 1 c).trans (Mm.hin (Vmid m) c))
    (fun c => (Mm.hout (Vmid m) c).trans (Cert.LibRegion.of_ΦA (pcfgs (F := F)) Gen.adm 1 c))
    (fun c t => rfl) (fun c => rfl)
    (Gen.V10 m (outs m)) (Gen.V11 m (outs m))
    (fun c => Cert.LibRegion.arrBufs_split_distinct cfg1 c (Mm.dat (F := F) (Vmid m) c) launch1.win.arr_inj launch1.arr_whole
      ((Mm.dat (F := F) (Vmid m) c).share_full fun _ => rfl) (fun b => Gen.V10 m (outs m) c b) _
      (fun w => (Mm.A_eq (Vmid m) c w).trans (V10_eq m c _).symm))
    (fun c => Cert.LibRegion.arrBufs_join_distinct cfg1 c (Mm.dat (F := F) (Vmid m) c) launch1.win.arr_inj launch1.arr_whole
      ((Mm.dat (F := F) (Vmid m) c).share_full fun _ => rfl) (fun b => Gen.V11 m (outs m) c b) _ (hF1 m c))
    (fun c b hb => Gen.V11_of m (outs m) c b (by
      rw [List.mem_singleton]; rintro rfl
      exact hb (Finset.mem_image.mpr ⟨3, Finset.mem_univ _, rfl⟩)))

/-! ## The launch -/

set_option backward.isDefEq.respectTransparency.types false in
/-- Every weakly fair execution of the program terminates, faults nowhere, and ends with the result buffer at
    `result` and every argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  -- the user algebra is the rounds ghost state alone; no level, no launch due, no ghost resource of the
  -- certificate's; beside the buffers every segment carries the generator register and the core owing nothing
  refine run_of_records m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := ?_) (E := fun _ c => Cert.LibRegion.R c) (hE0 := ?_) (hE2 := fun c => ?_)
    (R0 := reg0 m) (hpre0 := fun c => .rfl) (hpost0 := fun c => .rfl)
    (R1 := reg1 m) (hpre1 := fun c => .rfl) (hpost1 := fun c => .rfl)
  · -- the launch element is the pipeline library's own
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- each core keeps its generator register and its owing nothing
    refine Pipeline.initEach L lv fun c => ?_
    iintro ⟨⟨-, HO, -, Hp, -⟩, -⟩
    imodintro
    isplitl [Hp]; · iexists _; iexact Hp
    iexists ∅; iexact HO
  · iintro ⟨-, HO⟩
    iexact HO

end Cert.KernelIdeal.Run

end
-- ==== Proof.Spec.lean ====
/-
  What both programs compute, as one function of the argument arrays.

  The weights arrive packed: word q[a, n] holds eight 4-bit fields, field s (bits 4·s … 4·s + 3) the quantized
  weight of row k = 8·a + s.  Row k belongs to group k / 128, which has one scale sc[k / 128, n] and one zero point
  z[k / 128, n] per column.  The dequantized weight is
      w[k, n] = (float (field s of q[k / 8, n]) − float z[k / 128, n]) · sc[k / 128, n],
  and the result is  y[b, s, n] = Σ_{k < 4096} x[b, s, k] · w[k, n] + bias[n]  on the extended reals.

  Also here: the two intermediate arrays the kernel's program builds — the dequantized matrix over columns padded
  to 11264, and the product accumulated over the two halves of the contracted axis — and the one law that joins
  them to the result: a sum over 4096 terms is the sum of its two halves.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- Field `s` of a packed word: shift right (arithmetically) by 4·s, keep the low four bits. -/
def nib (q : BitVec 32) (s : Fin 8) : BitVec 32 :=
  IntOp.andi (IntOp.shrsi .vector q (IntOp.muli (BitVec.ofNat 32 s.val) 4#32)) 15#32

/-- One dequantized weight from its packed word, its field, its zero point and its scale. -/
def deq (q : BitVec 32) (s : Fin 8) (z : BitVec 32) (sc : EReal) : EReal :=
  (FloatOps.sitofp (F := Ideal) .f32 (nib q s) - FloatOps.sitofp (F := Ideal) .f32 z) * sc

/-- The dequantized weight matrix over `N` columns, entry (k, n). -/
def wmat {N : Nat} (q : Vec Ideal ⟨2, ![512, N]⟩ .i32) (sc : Vec Ideal ⟨2, ![32, N]⟩ .f32) (z : Vec Ideal ⟨2, ![32, N]⟩ .i32)
    (k : Fin 4096) (n : Fin N) : EReal :=
  deq (q (ix2 (⟨k.val / 8, by omega⟩ : Fin 512) n)) (⟨k.val % 8, by omega⟩ : Fin 8)
    (z (ix2 (⟨k.val / 128, by omega⟩ : Fin 32) n)) (sc (ix2 (⟨k.val / 128, by omega⟩ : Fin 32) n))

/-- THE RESULT: activations times dequantized weights, plus the bias. -/
def G (x : Vec Ideal ⟨3, ![4, 2048, 4096]⟩ .f32) (q : Vec Ideal ⟨2, ![512, 11008]⟩ .i32) (sc : Vec Ideal ⟨2, ![32, 11008]⟩ .f32)
    (z : Vec Ideal ⟨2, ![32, 11008]⟩ .i32) (b : Vec Ideal ⟨1, ![11008]⟩ .f32) : Vec Ideal ⟨3, ![4, 2048, 11008]⟩ .f32 :=
  fun i => (∑ k : Fin 4096, x (ix3 (i 0) (i 1) k) * wmat q sc z k (i 2)) + b (ix1 (i 2))

/-- The dequantized matrix as an array over the padded columns (what the first kernel call fills). -/
def Wfun (q : Vec Ideal ⟨2, ![512, 11264]⟩ .i32) (sc : Vec Ideal ⟨2, ![32, 11264]⟩ .f32) (z : Vec Ideal ⟨2, ![32, 11264]⟩ .i32) :
    Vec Ideal ⟨2, ![4096, 11264]⟩ .bf16 :=
  fun i => wmat q sc z (i 0) (i 1)

/-- The product accumulated over the two halves of the contracted axis, plus the bias row (what the second kernel
    call fills): flattened activations `X` (8192 × 4096), padded weights `W` (4096 × 11264), padded bias row `B`
    (1 × 11264); only the first 11008 columns are kept. -/
def Ofun (X : Vec Ideal ⟨2, ![8192, 4096]⟩ .bf16) (W : Vec Ideal ⟨2, ![4096, 11264]⟩ .bf16) (B : Vec Ideal ⟨2, ![1, 11264]⟩ .f32) :
    Vec Ideal ⟨2, ![8192, 11008]⟩ .f32 :=
  fun i =>
    ((∑ k : Fin 2048, X (ix2 (i 0) (⟨k.val, by omega⟩ : Fin 4096)) * W (ix2 (⟨k.val, by omega⟩ : Fin 4096) (⟨(i 1).val, by have := idx2_lt1 i; omega⟩ : Fin 11264)))
      + ∑ k : Fin 2048, X (ix2 (i 0) (⟨2048 + k.val, by omega⟩ : Fin 4096)) * W (ix2 (⟨2048 + k.val, by omega⟩ : Fin 4096) (⟨(i 1).val, by have := idx2_lt1 i; omega⟩ : Fin 11264)))
    + B (ix2 (0 : Fin 1) (⟨(i 1).val, by have := idx2_lt1 i; omega⟩ : Fin 11264))

/-- A sum over 4096 terms is the sum over the first 2048 plus the sum over the last 2048 (in any additive
    commutative monoid: no finiteness is needed on the extended reals). -/
theorem sum_halves {M : Type*} [AddCommMonoid M] (f : Fin 4096 → M) :
    (∑ k : Fin 4096, f k)
      = (∑ k : Fin 2048, f (⟨k.val, by omega⟩ : Fin 4096)) + ∑ k : Fin 2048, f (⟨2048 + k.val, by omega⟩ : Fin 4096) := by
  have h := Fin.sum_univ_add (M := M) (a := 2048) (b := 2048) (fun i : Fin (2048 + 2048) => f ⟨i.val, by have := i.isLt; omega⟩)
  simpa [Fin.castAdd, Fin.natAdd] using h

end Cert.Spec

end
-- ==== Proof.DequantValue.lean ====
/-
  What the first kernel call leaves in the weight matrix's buffer: every 1024 × 512 tile is the dequantized matrix
  read through the tile, and the tiles cover the 4096 × 11264 array, so the array ends at the dequantized matrix of
  the (padded) packed words, scales and zero points.
-/
import proofs.«423540_j24867860644059_3_alg».proof.Proof.DequantData
import proofs.«423540_j24867860644059_3_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

namespace Cert.KernelIdeal.Dq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal Cert.KernelIdeal.Gen

variable (V : (c : Dev nD) → (b : Ref sig .tc) → Buf (Elt Ideal) ((c : Thread nD τ).loc b))

/-! ## Layout operations of the tile, read at an index

Rows of the tile are numbered row-major over (word row, field) for the packed words and over (group, row in group) for
the scales and zero points: a reshape keeps the row-major position, a broadcast repeats along the unit axes. -/

section Layout
variable {α : Type}

/-- An `[a, b, c]` array flattened to `[a·b, c]` reads, at row `p`, the operand at `(p / b, p % b)`. -/
theorem shapeCast_abc_flat_apply {a b c m : ℕ} (hm : m = a * b) (hb : 0 < b) (x : (⟨3, ![a, b, c]⟩ : Shape).Idx → α)
    (h : (⟨3, ![a, b, c]⟩ : Shape).ShapeCasts ⟨2, ![m, c]⟩) (p : Fin m) (n : Fin c) :
    shapeCast ⟨2, ![m, c]⟩ x h (ix2 p n)
      = x (ix3 (⟨p.val / b, (Nat.div_lt_iff_lt_mul hb).2 (Nat.lt_of_lt_of_eq p.isLt hm)⟩ : Fin a)
            (⟨p.val % b, Nat.mod_lt _ hb⟩ : Fin b) n) :=
  shapeCast_apply x h _ _ (by
    rw [Shape.rowMajor_val_three, Shape.rowMajor_val_two]
    show (p.val / b * b + p.val % b) * c + n.val = p.val * c + n.val
    rw [Nat.div_add_mod'])

/-- An `[a, c]` array given a middle unit axis reads, at `(i, u, j)`, the operand at `(i, j)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, 1, c]` array repeated along its middle axis reads, at `(i, s, j)`, the operand at `(i, 0, j)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (s : Fin b) (j : Fin c) :
    broadcastTo ⟨3, ![a, b, c]⟩ x h (ix3 i s j) = x (ix3 i (0 : Fin 1) j) := by
  refine broadcastTo_apply x h (ix3 i s j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, 1]` array repeated along its outer axes reads, at `(i, s, j)`, the operand at `(0, s, 0)`. -/
theorem broadcastTo_1b1_abc_apply {a b c : ℕ} (x : (⟨3, ![1, b, 1]⟩ : Shape).Idx → α)
    (h : (⟨3, ![1, b, 1]⟩ : Shape).Broadcasts ⟨3, ![a, b, c]⟩) (i : Fin a) (s : Fin b) (j : Fin c) :
    broadcastTo ⟨3, ![a, b, c]⟩ x h (ix3 i s j) = x (ix3 (0 : Fin 1) s (0 : Fin 1)) := by
  refine broadcastTo_apply x h (ix3 i s j) (ix3 (0 : Fin 1) s (0 : Fin 1)) fun ax => ?_
  match ax with
  | ⟨0, _⟩ => rfl
  | ⟨1, _⟩ =>
    show s.val = if b = 1 then 0 else s.val
    split
    · have := s.isLt; omega
    · rfl
  | ⟨2, _⟩ => rfl

end Layout

/-! ## The body's stored value at an index -/

section IntAtIndex
variable {s : Shape} {w : Nat}

/-- A bitwise conjunction at an index is the conjunction of the elements … -/
theorem andi_apply (x y : IVec s w) (i : s.Idx) : andi x y i = IntOp.andi (x i) (y i) := rfl
/-- … an arithmetic right shift the vector unit's shift of the elements … -/
theorem shrsi_apply (x y : IVec s w) (i : s.Idx) : shrsi x y i = IntOp.shrsi .vector (x i) (y i) := rfl
/-- … and an integer product the product of the elements. -/
theorem muli_apply (x y : IVec s w) (i : s.Idx) : muli x y i = IntOp.muli (x i) (y i) := rfl

end IntAtIndex

/-- Row `p`, column `n` of the tile the body stores: the field `p % 8` of the packed word in word row `p / 8`, less the
    zero point of group `p / 128`, times that group's scale — the dequantized weight of the specification. -/
theorem pay_apply (x0 : Vec Ideal S128x512 .i32) (x1 : Vec Ideal S8x512 .f32) (x2 : Vec Ideal S8x512 .i32)
    (p : Fin 1024) (n : Fin 512) :
    k0_pay1 (F := Ideal) x0 x1 x2 (ix2 p n)
      = Cert.Spec.deq (x0 (ix2 (⟨p.val / 8, by omega⟩ : Fin 128) n)) (⟨p.val % 8, by omega⟩ : Fin 8)
          (x2 (ix2 (⟨p.val / 128, by omega⟩ : Fin 8) n)) (x1 (ix2 (⟨p.val / 128, by omega⟩ : Fin 8) n)) := by
  unfold k0_pay1
  dsimp only
  rw [truncf_apply, mulf_apply, subf_apply, sitofp_apply]
  simp only [shapeCast_self]
  -- the three reshapes to 1024 rows: row p is (p / 8, p % 8) of the words, (p / 128, p % 128) of the groups
  rw [shapeCast_abc_flat_apply (a := 128) (b := 8) (c := 512) rfl (by decide),
    shapeCast_abc_flat_apply (a := 8) (b := 128) (c := 512) rfl (by decide),
    shapeCast_abc_flat_apply (a := 8) (b := 128) (c := 512) rfl (by decide)]
  -- the packed word, shifted by four times the field's number and masked
  rw [andi_apply, shrsi_apply, broadcast_apply, broadcastTo_a1c_abc_apply, shapeCast_ac_a1c_apply,
    broadcastTo_1b1_abc_apply, muli_apply, iota_single_apply, broadcast_apply]
  -- the group's zero point and scale
  rw [broadcastTo_a1c_abc_apply, shapeCast_ac_a1c_apply, sitofp_apply,
    broadcastTo_a1c_abc_apply, shapeCast_ac_a1c_apply]
  -- what is left is the specification's formula for one weight
  rfl

/-! ## From tiles to the array -/

/-- The index maps over the grid: every window's block index at a point is the output's, on both axes, and the
    output's stays inside its 4 × 22 blocks. -/
theorem idx_facts : ∀ t : Fin cfg0.N,
    win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 3
    ∧ win0_3.index t (1 : Fin 2) ≤ 21 :=
  (by decide +kernel : ∀ t : Fin grid0.N, _)

/-- Every one of the 4 × 22 output blocks is some point's. -/
theorem idx_onto : ∀ (q0 : Fin 4) (q1 : Fin 22), ∃ t : Fin cfg0.N, win0_3.index t = ![q0.val, q1.val] :=
  (by decide +kernel : ∀ (q0 : Fin 4) (q1 : Fin 22), ∃ t : Fin grid0.N, win0_3.index t = ![q0.val, q1.val])

/-- The tile of packed words at point `t`, entry `(a, n)`, is the words array at row `128·t₀ + a`, column `512·t₁ + n`. -/
theorem qw_apply (c : Dev nD) (t : Fin cfg0.N) (a : Fin 128) (n : Fin 512) (k : S512x11264.Idx)
    (hk0 : (k 0).val = win0_0.index t (0 : Fin 2) * 128 + a.val) (hk1 : (k 1).val = win0_0.index t (1 : Fin 2) * 512 + n.val) :
    qw V c t (ix2 a n) = (V c main_v0 : Vec Ideal S512x11264 .i32) k := by
  show V c main_v0 (((cfg0.win 0).blk t).view.emb (ix2 a n)) = V c main_v0 k
  congr 1
  funext ax; apply Fin.ext
  match ax with
  | ⟨0, _⟩ => show win0_0.index t (0 : Fin 2) * 128 + 1 * a.val = (k 0).val; omega
  | ⟨1, _⟩ => show win0_0.index t (1 : Fin 2) * 512 + 1 * n.val = (k 1).val; omega

/-- The tile of scales at point `t`, entry `(g, n)`, is the scales array at row `8·t₀ + g`, column `512·t₁ + n`. -/
theorem sc_apply (c : Dev nD) (t : Fin cfg0.N) (g : Fin 8) (n : Fin 512) (k : S32x11264.Idx)
    (hk0 : (k 0).val = win0_1.index t (0 : Fin 2) * 8 + g.val) (hk1 : (k 1).val = win0_1.index t (1 : Fin 2) * 512 + n.val) :
    sc V c t (ix2 g n) = (V c main_v1 : Vec Ideal S32x11264 .f32) k := by
  show V c main_v1 (((cfg0.win 1).blk t).view.emb (ix2 g n)) = V c main_v1 k
  congr 1
  funext ax; apply Fin.ext
  match ax with
  | ⟨0, _⟩ => show win0_1.index t (0 : Fin 2) * 8 + 1 * g.val = (k 0).val; omega
  | ⟨1, _⟩ => show win0_1.index t (1 : Fin 2) * 512 + 1 * n.val = (k 1).val; omega

/-- The tile of zero points at point `t`, entry `(g, n)`, is the zero points array at row `8·t₀ + g`, column `512·t₁ + n`. -/
theorem qz_apply (c : Dev nD) (t : Fin cfg0.N) (g : Fin 8) (n : Fin 512) (k : S32x11264.Idx)
    (hk0 : (k 0).val = win0_2.index t (0 : Fin 2) * 8 + g.val) (hk1 : (k 1).val = win0_2.index t (1 : Fin 2) * 512 + n.val) :
    qz V c t (ix2 g n) = (V c main_v2 : Vec Ideal S32x11264 .i32) k := by
  show V c main_v2 (((cfg0.win 2).blk t).view.emb (ix2 g n)) = V c main_v2 k
  congr 1
  funext ax; apply Fin.ext
  match ax with
  | ⟨0, _⟩ => show win0_2.index t (0 : Fin 2) * 8 + 1 * g.val = (k 0).val; omega
  | ⟨1, _⟩ => show win0_2.index t (1 : Fin 2) * 512 + 1 * n.val = (k 1).val; omega

/-- Entry `(p, n)` of the tile point `t` writes is the dequantized matrix at the array index `i` under it: row
    `1024·t₀ + p`, column `512·t₁ + n`. Its word row is `128·t₀ + p / 8`, its field `p % 8`, its group `8·t₀ + p / 128`. -/
theorem tile_apply (c : Dev nD) (t : Fin cfg0.N) (p : Fin 1024) (n : Fin 512) (i : S4096x11264.Idx)
    (hi0 : (i 0).val = win0_3.index t (0 : Fin 2) * 1024 + p.val) (hi1 : (i 1).val = win0_3.index t (1 : Fin 2) * 512 + n.val) :
    tile V c t (ix2 p n)
      = Cert.Spec.Wfun (V c main_v0 : Vec Ideal S512x11264 .i32) (V c main_v1 : Vec Ideal S32x11264 .f32) (V c main_v2 : Vec Ideal S32x11264 .i32) i := by
  obtain ⟨e00, e01, e10, e11, e20, e21, b0, b1⟩ := idx_facts t
  have hp : p.val < 1024 := p.isLt
  have h0 : (i 0).val < 4096 := (i 0).isLt
  unfold tile
  rw [pay_apply]
  show Cert.Spec.deq _ _ _ _
    = Cert.Spec.deq ((V c main_v0 : Vec Ideal S512x11264 .i32) (ix2 (⟨(i 0).val / 8, by omega⟩ : Fin 512) (i 1))) (⟨(i 0).val % 8, by omega⟩ : Fin 8)
        ((V c main_v2 : Vec Ideal S32x11264 .i32) (ix2 (⟨(i 0).val / 128, by omega⟩ : Fin 32) (i 1)))
        ((V c main_v1 : Vec Ideal S32x11264 .f32) (ix2 (⟨(i 0).val / 128, by omega⟩ : Fin 32) (i 1)))
  rw [qw_apply V c t _ n (ix2 (⟨(i 0).val / 8, by omega⟩ : Fin 512) (i 1)) (by show (i 0).val / 8 = win0_0.index t (0 : Fin 2) * 128 + p.val / 8; omega) (by show (i 1).val = win0_0.index t (1 : Fin 2) * 512 + n.val; omega),
    qz_apply V c t _ n (ix2 (⟨(i 0).val / 128, by omega⟩ : Fin 32) (i 1)) (by show (i 0).val / 128 = win0_2.index t (0 : Fin 2) * 8 + p.val / 128; omega) (by show (i 1).val = win0_2.index t (1 : Fin 2) * 512 + n.val; omega),
    sc_apply V c t _ n (ix2 (⟨(i 0).val / 128, by omega⟩ : Fin 32) (i 1)) (by show (i 0).val / 128 = win0_1.index t (0 : Fin 2) * 8 + p.val / 128; omega) (by show (i 1).val = win0_1.index t (1 : Fin 2) * 512 + n.val; omega)]
  have hs : (⟨p.val % 8, by omega⟩ : Fin 8) = ⟨(i 0).val % 8, by omega⟩ := Fin.ext (by show p.val % 8 = (i 0).val % 8; omega)
  rw [hs]

/-- WHAT POINT `t` WRITES BACK is its block of the dequantized matrix of the arrays the call finds. -/
theorem flushed_eq (c : Dev nD) (t : Fin cfg0.N) :
    (dat (F := Ideal) V c).flushed 3 t
      = ((cfg0.win 3).blk t).view.read (Elt Ideal)
          (Cert.Spec.Wfun (V c main_v0 : Vec Ideal S512x11264 .i32) (V c main_v1 : Vec Ideal S32x11264 .f32) (V c main_v2 : Vec Ideal S32x11264 .i32)) := by
  show (cfg0.win 3).cut (grid0.coords t) ((dat (F := Ideal) V c).after 3 t) = _
  rw [after_3]
  funext j
  obtain ⟨p, n, rfl⟩ : ∃ (p : Fin 1024) (n : Fin 512), j = ix2 p n := ⟨j 0, j 1, eq_ix2 j⟩
  show tile V c t (ix2 p n) = Cert.Spec.Wfun _ _ _ (((cfg0.win 3).blk t).view.emb (ix2 p n))
  refine tile_apply V c t p n _ ?_ ?_
  · show win0_3.index t (0 : Fin 2) * 1024 + 1 * p.val = _; omega
  · show win0_3.index t (1 : Fin 2) * 512 + 1 * n.val = _; omega

/-- An index of the array is in point `t`'s block iff each coordinate is in the block's range on its axis. -/
theorem mem_blk (t : Fin cfg0.N) (i : S4096x11264.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v7).slice (win0_3.rect t)).set ↔ _
  rw [View.set_slice_whole, Rect.mem_set_unit]
  exact Iff.rfl

/-- The blocks tile the array: index `(r, n)` lies in the block of the point whose block index is `(r / 1024, n / 512)`,
    and every point writes its block back. -/
theorem cover (i : S4096x11264.Idx) : ∃ t : Fin cfg0.N, (cfg0.win 3).flush t = true ∧ i ∈ ((cfg0.win 3).blk t).view.set := by
  have hi0 : (i 0).val < 4096 := (i 0).isLt
  have hi1 : (i 1).val < 11264 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- After the call the weight matrix's buffer holds the dequantized matrix of the three padded input arrays. -/
theorem final (c : Dev nD) :
    (dat (F := Ideal) V c).arrAt 3 cfg0.N
      = Cert.Spec.Wfun (V c main_v0 : Vec Ideal S512x11264 .i32) (V c main_v1 : Vec Ideal S32x11264 .f32) (V c main_v2 : Vec Ideal S32x11264 .i32) := by
  exact (dat (F := Ideal) V c).arrAt_eq_of_cover 3 _ (fun t _ => flushed_eq V c t) cover

end Cert.KernelIdeal.Dq

end
-- ==== Proof.MatmulValue.lean ====
/-
  What the second kernel call leaves in the product's buffer: the tile written back at the point (i, j, 1) is the
  accumulated product of the two halves of the contracted axis plus the bias row, read through the tile's part
  inside the array; those parts cover the 8192 × 11008 array.
-/
import proofs.«423540_j24867860644059_3_alg».proof.Proof.MatmulData
import proofs.«423540_j24867860644059_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal Cert.KernelIdeal.Gen

variable (V : (c : Dev nD) → (b : Ref sig .tc) → Buf (Elt Ideal) ((c : Thread nD τ).loc b))

/-! ## The three payloads at an entry -/

/-- The matrix product's left operand index at output entry `i` and contraction index `q`: row of the output, -/
theorem lhs_mm_0 (i : S1024x1408.Idx) (q : dot_S1024x2048_S2048x1408_S1024x1408_1_0_0_1_n_n.contr.Idx) :
    (dot_S1024x2048_S2048x1408_S1024x1408_1_0_0_1_n_n.lhsIdx i q 0).val = (i 0).val := by
  unfold DotDims.lhsIdx
  rw [dif_neg (show ¬(0 : Fin S1024x2048.rank) ∈ dot_S1024x2048_S2048x1408_S1024x1408_1_0_0_1_n_n.lhsBatch by decide), dif_pos (show (0 : Fin S1024x2048.rank) ∈ dot_S1024x2048_S2048x1408_S1024x1408_1_0_0_1_n_n.lhsNonContracting by decide)]
  rfl
/-- and the contracted coordinate; -/
theorem lhs_mm_1 (i : S1024x1408.Idx) (q : dot_S1024x2048_S2048x1408_S1024x1408_1_0_0_1_n_n.contr.Idx) :
    (dot_S1024x2048_S2048x1408_S1024x1408_1_0_0_1_n_n.lhsIdx i q 1).val = (q ⟨0, by decide⟩).val :=
  dot_S1024x2048_S2048x1408_S1024x1408_1_0_0_1_n_n.lhsIdx_val_of_single rfl i q
/-- the right operand's: the contracted coordinate, -/
theorem rhs_mm_0 (i : S1024x1408.Idx) (q : dot_S1024x2048_S2048x1408_S1024x1408_1_0_0_1_n_n.contr.Idx) :
    (dot_S1024x2048_S2048x1408_S1024x1408_1_0_0_1_n_n.rhsIdx i q 0).val = (q ⟨0, by decide⟩).val :=
  dot_S1024x2048_S2048x1408_S1024x1408_1_0_0_1_n_n.rhsIdx_val_of_single rfl i q
/-- and the column of the output. -/
theorem rhs_mm_1 (i : S1024x1408.Idx) (q : dot_S1024x2048_S2048x1408_S1024x1408_1_0_0_1_n_n.contr.Idx) :
    (dot_S1024x2048_S2048x1408_S1024x1408_1_0_0_1_n_n.rhsIdx i q 1).val = (i 1).val := by
  unfold DotDims.rhsIdx
  rw [dif_neg (show ¬(1 : Fin S2048x1408.rank) ∈ dot_S1024x2048_S2048x1408_S1024x1408_1_0_0_1_n_n.rhsBatch by decide), dif_pos (show (1 : Fin S2048x1408.rank) ∈ dot_S1024x2048_S2048x1408_S1024x1408_1_0_0_1_n_n.rhsNonContracting by decide)]
  rfl

/-- The product of a 1024 × 2048 tile with a 2048 × 1408 tile into a zero accumulator, at entry (p, n): the sum over
    the 2048 contracted coordinates of the products. -/
theorem mm_apply (x : FVec Ideal S1024x2048 .bf16) (w : FVec Ideal S2048x1408 .bf16) (p : Fin 1024) (n : Fin 1408) :
    matmul dot_S1024x2048_S2048x1408_S1024x1408_1_0_0_1_n_n none x w (constant (F := Ideal) S1024x1408 .f32 0x00000000#32) (ix2 p n)
      = ∑ k : Fin 2048, x (ix2 p k) * w (ix2 k n) := by
  simp only [matmul]
  rw [Ideal.matmul_constant_zero_apply, ← Equiv.sum_comp (ValueIdx.contrEquiv1 dot_S1024x2048_S2048x1408_S1024x1408_1_0_0_1_n_n 2048 rfl rfl).symm]
  refine Finset.sum_congr rfl fun k _ => ?_
  have hk := ValueIdx.contrEquiv1_symm_val dot_S1024x2048_S2048x1408_S1024x1408_1_0_0_1_n_n 2048 rfl rfl k
  have el : dot_S1024x2048_S2048x1408_S1024x1408_1_0_0_1_n_n.lhsIdx (ix2 p n) ((ValueIdx.contrEquiv1 dot_S1024x2048_S2048x1408_S1024x1408_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S1024x2048_S2048x1408_S1024x1408_1_0_0_1_n_n.rhsIdx (ix2 p n) ((ValueIdx.contrEquiv1 dot_S1024x2048_S2048x1408_S1024x1408_1_0_0_1_n_n 2048 rfl rfl).symm k) = ix2 k n := funext fun a => Fin.ext (by
    match a with
    | ⟨0, _⟩ => exact (rhs_mm_0 _ _).trans hk
    | ⟨1, _⟩ => exact rhs_mm_1 _ _)
  rw [el, er]

/-- The cleared accumulator is zero at every entry. -/
theorem pay1_apply (i : S1024x1408.Idx) : (k1_pay1 (F := Ideal)) i = 0 := by
  unfold k1_pay1
  show Ideal.ofBits .f32 0x00000000#32 = 0
  exact Ideal.ofBits_zero_f32

/-- The accumulating payload at entry (p, n): what the accumulator held there plus the tile product's entry. -/
theorem pay2_apply (a : Vec Ideal S1024x1408 .f32) (x : Vec Ideal S1024x2048 .bf16) (w : Vec Ideal S2048x1408 .bf16)
    (p : Fin 1024) (n : Fin 1408) :
    k1_pay2 a x w (ix2 p n) = a (ix2 p n) + ∑ k : Fin 2048, x (ix2 p k) * w (ix2 k n) := by
  unfold k1_pay2
  simp only [shapeCast_self]
  refine (addf_apply _ _ _).trans ?_
  exact congrArg (a (ix2 p n) + ·) (mm_apply x w p n)

/-- The written tile at entry (p, n): the accumulator's entry plus the bias row's entry of that column. -/
theorem pay3_apply (a : Vec Ideal S1024x1408 .f32) (b : Vec Ideal S1x1408 .f32) (p : Fin 1024) (n : Fin 1408) :
    k1_pay3 a b (ix2 p n) = a (ix2 p n) + b (ix2 (0 : Fin 1) n) := by
  unfold k1_pay3
  simp only [shapeCast_self]
  refine (addf_apply _ _ _).trans ?_
  exact congrArg (a (ix2 p n) + ·) (broadcastTo_1b_ab_apply b broadcasts_S1x1408_S1024x1408 p n)

/-- The written tile over the tiles it is computed from: two accumulating products over a cleared accumulator, then the
    bias row. -/
theorem out_entry (x0 x1 : Vec Ideal S1024x2048 .bf16) (w0 w1 : Vec Ideal S2048x1408 .bf16) (b : Vec Ideal S1x1408 .f32)
    (p : Fin 1024) (n : Fin 1408) :
    k1_pay3 (k1_pay2 (k1_pay2 (k1_pay1 (F := Ideal)) x0 w0) x1 w1) b (ix2 p n)
      = ((∑ k : Fin 2048, x0 (ix2 p k) * w0 (ix2 k n)) + ∑ k : Fin 2048, x1 (ix2 p k) * w1 (ix2 k n)) + b (ix2 (0 : Fin 1) n) := by
  rw [pay3_apply, pay2_apply, pay2_apply, pay1_apply, zero_add]

/-! ## Where each tile sits in its array -/

/-- The index maps over the grid's 128 points, point t ↦ (t / 16, t / 2 % 8, t % 2): the activations' tile is block
    (t / 16, t % 2), the weights' (t % 2, t / 2 % 8), the bias row's (0, t / 2 % 8), the output's (t / 16, t / 2 % 8);
    the output's tile is whole on the rows and, on the columns, cut to 1152 in the last column block. -/
theorem idx_facts : ∀ t : Fin cfg1.N,
    win1_0.index t (0 : Fin 2) = t.val / 16 ∧ win1_0.index t (1 : Fin 2) = t.val % 2
    ∧ win1_1.index t (0 : Fin 2) = t.val % 2 ∧ win1_1.index t (1 : Fin 2) = t.val / 2 % 8
    ∧ win1_2.index t (0 : Fin 2) = 0 ∧ win1_2.index t (1 : Fin 2) = t.val / 2 % 8
    ∧ win1_3.index t (0 : Fin 2) = t.val / 16 ∧ win1_3.index t (1 : Fin 2) = t.val / 2 % 8
    ∧ win1_3.xsize (grid1.coords t) (0 : Fin 2) = 1024
    ∧ win1_3.xsize (grid1.coords t) (1 : Fin 2) = (if t.val / 2 % 8 = 7 then 1152 else 1408) :=
  (by decide +kernel : ∀ t : Fin grid1.N, _)

/-- The activations' tile at point t, entry (p, k): the array's entry (t / 16 · 1024 + p, t % 2 · 2048 + k). -/
theorem xb_apply (c : Dev nD) (t : Fin cfg1.N) (p : Fin 1024) (k : Fin 2048) (i : S8192x4096.Idx)
    (h0 : (i 0).val = t.val / 16 * 1024 + p.val) (h1 : (i 1).val = t.val % 2 * 2048 + k.val) :
    xb (F := Ideal) V c t (ix2 p k) = (V c main_v6 : Vec Ideal S8192x4096 .bf16) i := by
  obtain ⟨e00, e01, -⟩ := idx_facts t
  show V c main_v6 (((cfg1.win 0).blk t).view.emb (ix2 p k)) = V c main_v6 i
  refine congrArg _ (Shape.idx_ext₂ ?_ ?_)
  · show win1_0.index t (0 : Fin 2) * 1024 + 1 * p.val = _
    rw [h0, e00]; omega
  · show win1_0.index t (1 : Fin 2) * 2048 + 1 * k.val = _
    rw [h1, e01]; omega

/-- The weights' tile at point t, entry (k, n): the array's entry (t % 2 · 2048 + k, t / 2 % 8 · 1408 + n). -/
theorem wb_apply (c : Dev nD) (t : Fin cfg1.N) (k : Fin 2048) (n : Fin 1408) (i : S4096x11264.Idx)
    (h0 : (i 0).val = t.val % 2 * 2048 + k.val) (h1 : (i 1).val = t.val / 2 % 8 * 1408 + n.val) :
    wb (F := Ideal) V c t (ix2 k n) = (V c main_v7 : Vec Ideal S4096x11264 .bf16) i := by
  obtain ⟨-, -, e10, e11, -⟩ := idx_facts t
  show V c main_v7 (((cfg1.win 1).blk t).view.emb (ix2 k n)) = V c main_v7 i
  refine congrArg _ (Shape.idx_ext₂ ?_ ?_)
  · show win1_1.index t (0 : Fin 2) * 2048 + 1 * k.val = _
    rw [h0, e10]; omega
  · show win1_1.index t (1 : Fin 2) * 1408 + 1 * n.val = _
    rw [h1, e11]; omega

/-- The bias row's tile at point t, entry (0, n): the row's entry (0, t / 2 % 8 · 1408 + n). -/
theorem bb_apply (c : Dev nD) (t : Fin cfg1.N) (n : Fin 1408) (i : S1x11264.Idx)
    (h0 : (i 0).val = 0) (h1 : (i 1).val = t.val / 2 % 8 * 1408 + n.val) :
    bb (F := Ideal) V c t (ix2 (0 : Fin 1) n) = (V c main_v4 : Vec Ideal S1x11264 .f32) i := by
  obtain ⟨-, -, -, -, e20, e21, -⟩ := idx_facts t
  show V c main_v4 (((cfg1.win 2).blk t).view.emb (ix2 (0 : Fin 1) n)) = V c main_v4 i
  refine congrArg _ (Shape.idx_ext₂ ?_ ?_)
  · show win1_2.index t (0 : Fin 2) * 1 + 1 * 0 = _
    rw [h0, e20]
  · show win1_2.index t (1 : Fin 2) * 1408 + 1 * n.val = _
    rw [h1, e21]; omega

/-! ## The tile written back at a point with k = 1 -/

/-- At an odd point t (coordinates (t / 16, t / 2 % 8, 1)) the written tile's entry (p, n) is the product's entry
    (t / 16 · 1024 + p, t / 2 % 8 · 1408 + n): the point before (k = 0) contributed the first half of the contracted
    axis, this one the second half, and the bias row's tile is that column block's. -/
theorem entry_eq (c : Dev nD) (t : Fin cfg1.N) (ht : t.val % 2 = 1) (p : Fin 1024) (n : Fin 1408) (i : S8192x11008.Idx)
    (h0 : (i 0).val = t.val / 16 * 1024 + p.val) (h1 : (i 1).val = t.val / 2 % 8 * 1408 + n.val) :
    outTile (F := Ideal) V c t (ix2 p n) = Cert.Spec.Ofun (V c main_v6 : Vec Ideal S8192x4096 .bf16) (V c main_v7 : Vec Ideal S4096x11264 .bf16) (V c main_v4 : Vec Ideal S1x11264 .f32) i := by
  have hN : t.val < 128 := t.isLt
  have hout : outTile (F := Ideal) V c t
      = k1_pay3 (k1_pay2 (k1_pay2 (k1_pay1 (F := Ideal)) (xb V c ⟨t.val - 1, Nat.lt_of_le_of_lt (Nat.sub_le _ _) t.isLt⟩) (wb V c ⟨t.val - 1, Nat.lt_of_le_of_lt (Nat.sub_le _ _) t.isLt⟩)) (xb V c t) (wb V c t)) (bb V c t) := by
    unfold outTile accAt
    rw [if_neg (by omega)]
    rfl
  refine (congrFun hout _).trans ?_
  refine (out_entry _ _ _ _ _ p n).trans ?_
  unfold Cert.Spec.Ofun
  refine congrArg₂ (· + ·) (congrArg₂ (· + ·) (Finset.sum_congr rfl fun k _ => ?_) (Finset.sum_congr rfl fun k _ => ?_)) ?_
  · refine congrArg₂ (· * ·) (xb_apply V c _ p k _ ?_ ?_) (wb_apply V c _ k n _ ?_ ?_)
    · show (i 0).val = (t.val - 1) / 16 * 1024 + p.val; omega
    · show k.val = (t.val - 1) % 2 * 2048 + k.val; omega
    · show k.val = (t.val - 1) % 2 * 2048 + k.val; omega
    · show (i 1).val = (t.val - 1) / 2 % 8 * 1408 + n.val; omega
  · refine congrArg₂ (· * ·) (xb_apply V c t p k _ ?_ ?_) (wb_apply V c t k n _ ?_ ?_)
    · show (i 0).val = t.val / 16 * 1024 + p.val; omega
    · show 2048 + k.val = t.val % 2 * 2048 + k.val; omega
    · show 2048 + k.val = t.val % 2 * 2048 + k.val; omega
    · show (i 1).val = t.val / 2 % 8 * 1408 + n.val; omega
  · refine bb_apply V c t n _ ?_ ?_
    · rfl
    · show (i 1).val = t.val / 2 % 8 * 1408 + n.val; omega

/-- What a point with k = 1 writes back — the part of its tile inside the array — is the product read through that
    part. -/
theorem flushed_eq (c : Dev nD) (t : Fin cfg1.N) (ht : t.val % 2 = 1) :
    (dat (F := Ideal) V c).flushed 3 t
      = ((cfg1.win 3).blk t).view.read (Elt Ideal) (Cert.Spec.Ofun (V c main_v6 : Vec Ideal S8192x4096 .bf16) (V c main_v7 : Vec Ideal S4096x11264 .bf16) (V c main_v4 : Vec Ideal S1x11264 .f32)) := by
  show (cfg1.win 3).cut (grid1.coords t) ((dat (F := Ideal) V c).after 3 t) = _
  rw [after_3]
  obtain ⟨-, -, -, -, -, -, e30, e31, x0, x1⟩ := idx_facts t
  funext y
  have hp : (y 0).val < win1_3.xsize (grid1.coords t) (0 : Fin 2) := (y 0).isLt
  have hn : (y 1).val < win1_3.xsize (grid1.coords t) (1 : Fin 2) := (y 1).isLt
  rw [x0] at hp
  rw [x1] at hn
  have hn' : (y 1).val < 1408 := by split at hn <;> omega
  have hy : win1_3.xinj (grid1.coords t) y = ix2 (⟨(y 0).val, hp⟩ : Fin 1024) (⟨(y 1).val, hn'⟩ : Fin 1408) :=
    funext fun a => by match a with | ⟨0, _⟩ => rfl | ⟨1, _⟩ => rfl
  show outTile (F := Ideal) V c t (win1_3.xinj (grid1.coords t) y) = Cert.Spec.Ofun (V c main_v6 : Vec Ideal S8192x4096 .bf16) (V c main_v7 : Vec Ideal S4096x11264 .bf16) (V c main_v4 : Vec Ideal S1x11264 .f32) (((cfg1.win 3).blk t).view.emb y)
  refine (congrArg (outTile (F := Ideal) V c t) hy).trans ?_
  refine entry_eq V c t ht _ _ _ ?_ ?_
  · show win1_3.index t (0 : Fin 2) * 1024 + 1 * (y 0).val = t.val / 16 * 1024 + (y 0).val
    rw [e30]; omega
  · show win1_3.index t (1 : Fin 2) * 1408 + 1 * (y 1).val = t.val / 2 % 8 * 1408 + (y 1).val
    rw [e31]; omega

/-! ## The tiles' parts inside the array cover it -/

/-- An entry of the array is in point t's part iff on each axis it lies in the tile's range, cut at the array's end. -/
theorem mem_blk (t : Fin cfg1.N) (i : S8192x11008.Idx) :
    i ∈ ((cfg1.win 3).blk t).view.set ↔ ∀ a : Fin 2, win1_3.index t a * S1024x1408.size a ≤ (i a).val ∧ (i a).val < win1_3.index t a * S1024x1408.size a + win1_3.xsize (grid1.coords t) a := by
  show i ∈ ((View.whole main_v8).slice (win1_3.rect t)).set ↔ _
  rw [View.set_slice_whole, Rect.mem_set_unit]
  exact Iff.rfl

/-- Entry (r, n) lies in the part written at the point of coordinates (r / 1024, n / 1408, 1). -/
theorem cover (i : S8192x11008.Idx) : ∃ t : Fin cfg1.N, (cfg1.win 3).flush t = true ∧ i ∈ ((cfg1.win 3).blk t).view.set := by
  have h0 : (i 0).val < 8192 := (i 0).isLt
  have h1 : (i 1).val < 11008 := (i 1).isLt
  obtain ⟨t, htv⟩ : ∃ t : Fin cfg1.N, t.val = ((i 0).val / 1024 * 8 + (i 1).val / 1408) * 2 + 1 :=
    ⟨⟨((i 0).val / 1024 * 8 + (i 1).val / 1408) * 2 + 1, by show _ < 128; omega⟩, rfl⟩
  obtain ⟨-, -, -, -, -, -, e30, e31, x0, x1⟩ := idx_facts t
  refine ⟨t, (flush1_3 t).mpr (by omega), ?_⟩
  rw [mem_blk]
  intro a
  match a with
  | ⟨0, _⟩ =>
    show win1_3.index t (0 : Fin 2) * 1024 ≤ (i 0).val ∧ (i 0).val < win1_3.index t (0 : Fin 2) * 1024 + win1_3.xsize (grid1.coords t) (0 : Fin 2)
    rw [e30, x0]; omega
  | ⟨1, _⟩ =>
    show win1_3.index t (1 : Fin 2) * 1408 ≤ (i 1).val ∧ (i 1).val < win1_3.index t (1 : Fin 2) * 1408 + win1_3.xsize (grid1.coords t) (1 : Fin 2)
    rw [e31, x1]; split <;> omega

/-- After the call the product's buffer holds, at every entry, the two half sums of activations times weights plus
    the bias. -/
theorem final (c : Dev nD) :
    (dat (F := Ideal) V c).arrAt 3 cfg1.N
      = Cert.Spec.Ofun (V c main_v6 : Vec Ideal S8192x4096 .bf16) (V c main_v7 : Vec Ideal S4096x11264 .bf16) (V c main_v4 : Vec Ideal S1x11264 .f32) := by
  exact (dat (F := Ideal) V c).arrAt_eq_of_cover 3 _ (fun t hf => flushed_eq V c t ((flush1_3 t).mp hf)) cover

end Cert.KernelIdeal.Mm

end
-- ==== Proof.HostValue.lean ====
/-
  What the host operations before the first kernel call leave in the buffers the two calls read: the packed
  words, the scales and the zero points padded with 256 more columns, the bias padded and laid out as one row,
  and the activations flattened to 8192 rows (and cast to the narrow float format, the identity on the extended
  reals).  Read at an index inside the original extent, each is the argument array's entry.
-/
import proofs.«423540_j24867860644059_3_alg».proof.Proof.Gen.KernelIdeal.Regions
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run

set_option maxRecDepth 16384

noncomputable section

namespace Cert.KernelIdeal.HostVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal Cert.KernelIdeal.Gen

variable (m : (ℓ : Loc nD τ sig) → Buf (Elt Ideal) ℓ)

/-! ## What each buffer holds, as the operations' term of the launch memory

No later stretch writes the buffer, so its contents are what the stretch that writes it leaves: the writing
operation's function at its operands' contents, themselves read back to the launch memory. -/

/-- The packed words padded: 256 columns of the constant appended. -/
theorem v0_buf (c : Dev nD) :
    (Gen.V9 m c main_v0 : Vec Ideal S512x11264 .i32)
      = pad S512x11264 ![0, 0] ![0, 256] ![0, 0] (m ((c.tc : Thread nD τ).loc main_arg1) : Vec Ideal S512x11008 .i32)
          (constantI S_ 32 0#32) pads_S512x11008_S512x11264_000_02560 h_S_ := by
  rw [Gen.V9_of m c main_v0 (by decide), Gen.V8_of m c main_v0 (by decide), Gen.V7_of m c main_v0 (by decide),
    Gen.V6_of m c main_v0 (by decide), Gen.V5_of m c main_v0 (by decide), Gen.V4_of m c main_v0 (by decide),
    Gen.V3_of m c main_v0 (by decide)]
  dsimp only [Gen.V2, Gen.hostOps0_1]
  after_results
  rfl

/-- The scales padded. -/
theorem v1_buf (c : Dev nD) :
    (Gen.V9 m c main_v1 : Vec Ideal S32x11264 .f32)
      = pad S32x11264 ![0, 0] ![0, 256] ![0, 0] (m ((c.tc : Thread nD τ).loc main_arg2) : Vec Ideal S32x11008 .f32)
          (sitofp (F := Ideal) .f32 (constantI S_ 32 0#32)) pads_S32x11008_S32x11264_000_02560 h_S_ := by
  rw [Gen.V9_of m c main_v1 (by decide), Gen.V8_of m c main_v1 (by decide), Gen.V7_of m c main_v1 (by decide),
    Gen.V6_of m c main_v1 (by decide), Gen.V5_of m c main_v1 (by decide)]
  dsimp only [Gen.V4, Gen.hostOps0_3]
  after_results
  rfl

/-- The zero points padded. -/
theorem v2_buf (c : Dev nD) :
    (Gen.V9 m c main_v2 : Vec Ideal S32x11264 .i32)
      = pad S32x11264 ![0, 0] ![0, 256] ![0, 0] (m ((c.tc : Thread nD τ).loc main_arg3) : Vec Ideal S32x11008 .i32)
          (constantI S_ 32 0#32) pads_S32x11008_S32x11264_000_02560 h_S_ := by
  rw [Gen.V9_of m c main_v2 (by decide), Gen.V8_of m c main_v2 (by decide), Gen.V7_of m c main_v2 (by decide)]
  dsimp only [Gen.V6, Gen.hostOps0_5]
  after_results
  rfl

/-- The bias padded, then laid out as one row. -/
theorem v4_buf (c : Dev nD) :
    (Gen.V9 m c main_v4 : Vec Ideal S1x11264 .f32)
      = shapeCast S1x11264
          (pad S11264 ![0] ![256] ![0] (m ((c.tc : Thread nD τ).loc main_arg4) : Vec Ideal S11008 .f32)
            (sitofp (F := Ideal) .f32 (constantI S_ 32 0#32)) pads_S11008_S11264_02560 h_S_)
          shapeCasts_S11264_S1x11264 := by
  dsimp only [Gen.V9, Gen.hostOps0_8]
  after_results
  rfl

/-- The activations flattened, then cast to the narrow float format. -/
theorem v6_buf (c : Dev nD) :
    (Gen.V9 m c main_v6 : Vec Ideal S8192x4096 .bf16)
      = (truncf (F := Ideal) .bf16
          (shapeCast S8192x4096 (m ((c.tc : Thread nD τ).loc main_arg0) : Vec Ideal S4x2048x4096 .f32)
            shapeCasts_S4x2048x4096_S8192x4096 : Vec Ideal S8192x4096 .f32)
          bitsLt_bf16_f32 : Vec Ideal S8192x4096 .bf16) := by
  dsimp only [Gen.V9, Gen.hostOps0_8]
  after_results
  rfl

/-! ## The buffers read at an index

An index inside the operand's extent reads the operand through a pad; a reshape keeps the row-major position. -/

/-- The padded packed words, at a column of the original extent. -/
theorem v0_apply (c : Dev nD) (a : Fin 512) (n : Fin 11008) :
    (Gen.V9 m c main_v0 : Vec Ideal S512x11264 .i32) (ix2 a (⟨n.val, by omega⟩ : Fin 11264))
      = (m ((c.tc : Thread nD τ).loc main_arg1) : Vec Ideal S512x11008 .i32) (ix2 a n) := by
  rw [v0_buf]
  refine pad_apply_of_inside _ _ _ _ _ _ _ _ (ix2 a n) fun ax => ?_
  match ax with
  | ⟨0, _⟩ => show a.val = 0 + a.val * (0 + 1); omega
  | ⟨1, _⟩ => show n.val = 0 + n.val * (0 + 1); omega

/-- The padded scales, at a column of the original extent. -/
theorem v1_apply (c : Dev nD) (g : Fin 32) (n : Fin 11008) :
    (Gen.V9 m c main_v1 : Vec Ideal S32x11264 .f32) (ix2 g (⟨n.val, by omega⟩ : Fin 11264))
      = (m ((c.tc : Thread nD τ).loc main_arg2) : Vec Ideal S32x11008 .f32) (ix2 g n) := by
  rw [v1_buf]
  refine pad_apply_of_inside _ _ _ _ _ _ _ _ (ix2 g n) fun ax => ?_
  match ax with
  | ⟨0, _⟩ => show g.val = 0 + g.val * (0 + 1); omega
  | ⟨1, _⟩ => show n.val = 0 + n.val * (0 + 1); omega

/-- The padded zero points, at a column of the original extent. -/
theorem v2_apply (c : Dev nD) (g : Fin 32) (n : Fin 11008) :
    (Gen.V9 m c main_v2 : Vec Ideal S32x11264 .i32) (ix2 g (⟨n.val, by omega⟩ : Fin 11264))
      = (m ((c.tc : Thread nD τ).loc main_arg3) : Vec Ideal S32x11008 .i32) (ix2 g n) := by
  rw [v2_buf]
  refine pad_apply_of_inside _ _ _ _ _ _ _ _ (ix2 g n) fun ax => ?_
  match ax with
  | ⟨0, _⟩ => show g.val = 0 + g.val * (0 + 1); omega
  | ⟨1, _⟩ => show n.val = 0 + n.val * (0 + 1); omega

/-- The padded bias as one row, at a column of the original extent. -/
theorem v4_apply (c : Dev nD) (n : Fin 11008) :
    (Gen.V9 m c main_v4 : Vec Ideal S1x11264 .f32) (ix2 (0 : Fin 1) (⟨n.val, by omega⟩ : Fin 11264))
      = (m ((c.tc : Thread nD τ).loc main_arg4) : Vec Ideal S11008 .f32) (ix1 n) := by
  rw [v4_buf]
  -- the one row's column n is the padded vector's entry n,
  refine (shapeCast_apply _ _ _ (ix1 (⟨n.val, by omega⟩ : Fin 11264)) ?_).trans ?_
  · rw [Shape.rowMajor_val_one, Shape.rowMajor_val_two]
    show n.val = 0 * 11264 + n.val
    omega
  -- which is inside the bias
  refine pad_apply_of_inside _ _ _ _ _ _ _ _ (ix1 n) fun ax => ?_
  match ax with
  | ⟨0, _⟩ => show n.val = 0 + n.val * (0 + 1); omega

/-- The flattened activations: row b·2048 + s is row (b, s). -/
theorem v6_apply (c : Dev nD) (b : Fin 4) (s : Fin 2048) (k : Fin 4096) :
    (Gen.V9 m c main_v6 : Vec Ideal S8192x4096 .bf16) (ix2 (⟨b.val * 2048 + s.val, by omega⟩ : Fin 8192) k)
      = (m ((c.tc : Thread nD τ).loc main_arg0) : Vec Ideal S4x2048x4096 .f32) (ix3 b s k) := by
  rw [v6_buf]
  -- the cast is the identity on the extended reals; the reshape keeps the row-major position
  rw [truncf_apply]
  refine shapeCast_apply _ _ _ (ix3 b s k) ?_
  rw [Shape.rowMajor_val_three, Shape.rowMajor_val_two]
  show (b.val * 2048 + s.val) * 4096 + k.val = (b.val * 2048 + s.val) * 4096 + k.val
  rfl

end Cert.KernelIdeal.HostVal

end
-- ==== Proof.Bridge.lean ====
/-
  The kernel program's result is the specification.

  The second call's product array, at row r = b·2048 + s and column n < 11008, is the two half sums of
  X[r, k] · W[k, n] plus B[0, n], where X is the flattened activations, W the first call's dequantized matrix of
  the padded inputs and B the padded bias row.  Inside the original 11008 columns the padded arrays are the
  arguments, so W[k, n] is the specification's weight; the two half sums are the whole sum over k < 4096; and the
  final reshape reads row b·2048 + s at (b, s).
-/
import proofs.«423540_j24867860644059_3_alg».proof.Proof.DequantValue
import proofs.«423540_j24867860644059_3_alg».proof.Proof.MatmulValue
import proofs.«423540_j24867860644059_3_alg».proof.Proof.HostValue
import proofs.«423540_j24867860644059_3_alg».proof.Proof.Spec

set_option maxRecDepth 16384

noncomputable section

namespace Cert.KernelIdeal.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal Cert.KernelIdeal.Gen

variable (m : (ℓ : Loc nD τ sig) → Buf (Elt Ideal) ℓ)

/-- The buffers' contents when the first call is entered. -/
abbrev Vin (c : Dev nD) (b : Ref sig .tc) : Buf (Elt Ideal) ((c : Thread nD τ).loc b) := Gen.V9 m c b

/-- The dequantized matrix of the padded inputs, inside the original columns, is the specification's weight. -/
theorem wfun_apply (c : Dev nD) (k : Fin 4096) (n : Fin 11008) :
    Cert.Spec.Wfun (Vin m c main_v0 : Vec Ideal S512x11264 .i32) (Vin m c main_v1 : Vec Ideal S32x11264 .f32) (Vin m c main_v2 : Vec Ideal S32x11264 .i32)
        (ix2 k (⟨n.val, by omega⟩ : Fin 11264))
      = Cert.Spec.wmat (m ((c.tc : Thread nD τ).loc main_arg1) : Vec Ideal S512x11008 .i32)
          (m ((c.tc : Thread nD τ).loc main_arg2) : Vec Ideal S32x11008 .f32)
          (m ((c.tc : Thread nD τ).loc main_arg3) : Vec Ideal S32x11008 .i32) k n := by
  have e0 := HostVal.v0_apply m c ⟨k.val / 8, by omega⟩ n
  have e1 := HostVal.v1_apply m c ⟨k.val / 128, by omega⟩ n
  have e2 := HostVal.v2_apply m c ⟨k.val / 128, by omega⟩ n
  show Cert.Spec.wmat _ _ _ k (⟨n.val, _⟩ : Fin 11264) = _
  unfold Cert.Spec.wmat
  dsimp only [Vin]
  rw [e0, e1, e2]

/-- The result, for any contents `W` of the buffers at the second call's entry that agree with the first call's
    entry contents on the activations and the bias row and hold the first call's dequantized matrix. -/
theorem result_eq_G (c : Dev nD) (W : (c : Dev nD) → (b : Ref sig .tc) → Buf (Elt Ideal) ((c : Thread nD τ).loc b))
    (h6 : W c main_v6 = Vin m c main_v6) (h4 : W c main_v4 = Vin m c main_v4)
    (h7 : W c main_v7 = (Dq.dat (F := Ideal) (Vin m) c).arrAt 3 cfg0.N) :
    (shapeCast S4x2048x11008 ((Mm.dat (F := Ideal) W c).arrAt 3 cfg1.N) shapeCasts_S8192x11008_S4x2048x11008 : Vec Ideal S4x2048x11008 .f32)
      = Cert.Spec.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  obtain ⟨b, s, n, rfl⟩ : ∃ (b : Fin 4) (s : Fin 2048) (n : Fin 11008), i = ix3 b s n := ⟨i 0, i 1, i 2, eq_ix3 i⟩
  rw [shapeCast_apply _ _ (ix3 b s n) (ix2 (⟨b.val * 2048 + s.val, by omega⟩ : Fin 8192) n)
    (by rw [Shape.rowMajor_val_two, Shape.rowMajor_val_three]; rfl)]
  rw [Mm.final W c, h6, h4, h7, Dq.final (Vin m) c]
  unfold Cert.Spec.Ofun Cert.Spec.G
  rw [Cert.Spec.sum_halves]
  refine congrArg₂ (· + ·) (congrArg₂ (· + ·) (Finset.sum_congr rfl fun k _ => ?_) (Finset.sum_congr rfl fun k _ => ?_)) ?_
  · exact congrArg₂ (· * ·) (HostVal.v6_apply m c b s ⟨k.val, by omega⟩) (wfun_apply m c ⟨k.val, by omega⟩ n)
  · exact congrArg₂ (· * ·) (HostVal.v6_apply m c b s ⟨2048 + k.val, by omega⟩) (wfun_apply m c ⟨2048 + k.val, by omega⟩ n)
  · exact HostVal.v4_apply m c n

end Cert.KernelIdeal.Bridge

end
-- ==== Proof.RefValue.lean ====
/-
  The reference program's result is the specification: its dequantization spells the fields with an iota of shifts
  broadcast against the packed words, its group broadcast with a reshape of (32, 128, N) to (4096, N), and its
  product with one contraction over all 4096 rows.
-/
import proofs.«423540_j24867860644059_3_alg».proof.Proof.Gen.ReferenceIdeal.Run
import proofs.«423540_j24867860644059_3_alg».proof.Proof.Gen.ReferenceIdeal.Read
import proofs.«423540_j24867860644059_3_alg».proof.Proof.Spec
import Idealize.ShloMosaic.Lib.ValueIdx
import Idealize.ShloMosaic.Lib.Pipeline.Value
import Idealize.ShloMosaic.Lib.KernelVsHost
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen

/-- Row `k` of the reshape (512, 8, N) → (4096, N) is word `k / 8`, field `k % 8`: the row-major position
    `k · N + n` split by N and by 8 · N. -/
theorem idx_fields (k : Fin 4096) (n : Fin 11008) :
    Read.idx_main_v10 (ix2 k n)
      = ix3 (⟨k.val / 8, by omega⟩ : Fin 512) (⟨k.val % 8, by omega⟩ : Fin 8) n := by
  funext a
  match a with
  | ⟨0, _⟩ => exact Fin.ext (by show (k.val * 11008 + n.val) / 88064 = k.val / 8; omega)
  | ⟨1, _⟩ => exact Fin.ext (by show (k.val * 11008 + n.val) / 11008 % 8 = k.val % 8; omega)
  | ⟨2, _⟩ => exact Fin.ext (by show (k.val * 11008 + n.val) % 11008 = n.val; omega)

/-- Row `k` of the reshape (32, 128, N) → (4096, N), read through the broadcast along the middle axis, is group
    `k / 128` (zero points). -/
theorem idx_group_z (k : Fin 4096) (n : Fin 11008) :
    Read.idx_main_v13 (Read.idx_main_v14 (ix2 k n)) = ix2 (⟨k.val / 128, by omega⟩ : Fin 32) n := by
  funext a
  match a with
  | ⟨0, _⟩ => exact Fin.ext (by show (k.val * 11008 + n.val) / 1409024 = k.val / 128; omega)
  | ⟨1, _⟩ => exact Fin.ext (by show (k.val * 11008 + n.val) % 11008 = n.val; omega)

/-- The same for the scales. -/
theorem idx_group_sc (k : Fin 4096) (n : Fin 11008) :
    Read.idx_main_v15 (Read.idx_main_v16 (ix2 k n)) = ix2 (⟨k.val / 128, by omega⟩ : Fin 32) n := by
  funext a
  match a with
  | ⟨0, _⟩ => exact Fin.ext (by show (k.val * 11008 + n.val) / 1409024 = k.val / 128; omega)
  | ⟨1, _⟩ => exact Fin.ext (by show (k.val * 11008 + n.val) % 11008 = n.val; omega)

/-- The packed word broadcast along the field axis: entry (a, s, n) reads word (a, n). -/
theorem idx_word (a : Fin 512) (s : Fin 8) (n : Fin 11008) :
    Read.idx_main_v4 (Read.idx_main_v5 (ix3 a s n)) = ix2 a n := by
  funext d
  match d with
  | ⟨0, _⟩ => rfl
  | ⟨1, _⟩ => rfl

/-- The shift amounts broadcast along the word and column axes: entry (a, s, n) reads amount `s`. -/
theorem idx_shift (a : Fin 512) (s : Fin 8) (n : Fin 11008) :
    Read.idx_main_v3 (Read.idx_main_v6 (ix3 a s n)) = ix1 s := by
  funext d
  match d with
  | ⟨0, _⟩ => rfl

/-- Entry (k, n) of the reference's dequantized matrix is the specification's weight: the field is the word
    shifted right by 4 · (k % 8) and masked with 15 (the arithmetic shift is the same word on every unit), the
    zero point and the scale are those of group k / 128. -/
theorem weight_entry (q : IVec S512x11008 32) (sc : FVec Ideal S32x11008 .f32) (z : IVec S32x11008 32)
    (k : Fin 4096) (n : Fin 11008) :
    Read.val_main_v18 (F := Ideal) q sc z (ix2 k n) = Cert.Spec.wmat q sc z k n := by
  rw [Read.val_main_v18_apply, Read.val_main_v17_apply, Read.val_main_v11_apply, Read.val_main_v10_apply, idx_fields,
    Read.val_main_v9_apply, Read.val_main_v7_apply, Read.val_main_v5_apply, Read.val_main_v4_apply, idx_word,
    Read.val_main_v6_apply, Read.val_main_v3_apply, idx_shift, Read.val_main_v2_apply, Read.val_main_v0_apply,
    Read.val_main_v1_apply, Read.val_main_c_apply, Read.val_main_v8_apply, Read.val_main_c_0_apply,
    Read.val_main_v14_apply, Read.val_main_v13_apply, idx_group_z, Read.val_main_v12_apply,
    Read.val_main_v16_apply, Read.val_main_v15_apply, idx_group_sc]
  unfold Cert.Spec.wmat Cert.Spec.deq Cert.Spec.nib
  rw [Idealize.ShloMosaic.shrsi_unit .host .vector]
  rfl

/-- The reference run's result term, at the extended reals, is the specification of the argument arrays. -/
theorem ref_eq (x : FVec Ideal S4x2048x4096 .f32) (q : IVec S512x11008 32) (sc : FVec Ideal S32x11008 .f32)
    (z : IVec S32x11008 32) (b : FVec Ideal S11008 .f32) :
    (addf (F := Ideal) (Host.dotGeneral dot_S4x2048x4096_S4096x11008_S4x2048x11008_2_0_01_1_n_n none x (mulf (subf (sitofp .f32 (shapeCast _ (andi (Host.shrsi (broadcastInDim S512x8x11008 ![0, 1, 2] bcast_S512x1x11008_S512x8x11008_0_1_2 (broadcastInDim S512x1x11008 ![0, 2] bcast_S512x11008_S512x1x11008_0_2 q)) (broadcastInDim S512x8x11008 ![0, 1, 2] bcast_S1x8x1_S512x8x11008_0_1_2 (broadcastInDim S1x8x1 ![1] bcast_S8_S1x8x1_1 (muli (iotaInDim S8 32 0) (broadcastInDim S8 ![] bcast_S_S8 (constantI S_ 32 4#32)))))) (broadcastInDim S512x8x11008 ![] bcast_S_S512x8x11008 (constantI S_ 32 15#32))) shapeCasts_S512x8x11008_S4096x11008)) (shapeCast _ (broadcastInDim S32x128x11008 ![0, 2] bcast_S32x11008_S32x128x11008_0_2 (sitofp .f32 z)) shapeCasts_S32x128x11008_S4096x11008)) (shapeCast _ (broadcastInDim S32x128x11008 ![0, 2] bcast_S32x11008_S32x128x11008_0_2 sc) shapeCasts_S32x128x11008_S4096x11008))) (broadcastInDim S4x2048x11008 ![0, 1, 2] bcast_S1x1x11008_S4x2048x11008_0_1_2 (broadcastInDim S1x1x11008 ![2] bcast_S11008_S1x1x11008_2 b)) : FVec Ideal S4x2048x11008 .f32)
      = Cert.Spec.G x q sc z b := by
  refine (Read.val_main_v22_eq (F := Ideal) x q sc z b).trans ?_
  funext i
  obtain ⟨a, s, n, rfl⟩ : ∃ (a : Fin 4) (s : Fin 2048) (n : Fin 11008), i = ix3 a s n :=
    ⟨i 0, i 1, i 2, eq_ix3 i⟩
  rw [Read.val_main_v22_apply, Read.val_main_v19_apply, Read.val_main_v21_apply, Read.val_main_v20_apply]
  -- the contraction reads the activations at (a, s, k) and the weights at (k, n); the bias is read at n
  have hl : ∀ k : Fin 4096, Read.lidx_main_v19 (ix3 a s n) k = ix3 a s k := fun k =>
    funext fun d => match d with
      | ⟨0, _⟩ => rfl
      | ⟨1, _⟩ => rfl
      | ⟨2, _⟩ => rfl
  have hr : ∀ k : Fin 4096, Read.ridx_main_v19 (ix3 a s n) k = ix2 k n := fun k =>
    funext fun d => match d with
      | ⟨0, _⟩ => rfl
      | ⟨1, _⟩ => rfl
  have hb : Read.idx_main_v20 (Read.idx_main_v21 (ix3 a s n)) = ix1 n :=
    funext fun d => match d with
      | ⟨0, _⟩ => rfl
  simp only [hl, hr, hb, weight_entry]
  rfl

end Cert.ReferenceIdeal.RefValue

end
-- ==== Proof.lean ====
/-
  The certificate: an int4-quantized linear layer.

  Both programs compute  y[b, s, n] = Σ_{k < 4096} x[b, s, k] · w[k, n] + bias[n]  on the extended reals, where
  w[k, n] = (float (field k % 8 of q[k / 8, n]) − float z[k / 128, n]) · sc[k / 128, n]  is the dequantized weight.
  The reference dequantizes with host operations and contracts all 4096 rows at once.  The kernel's program pads the
  columns to 11264, fills the dequantized matrix tile by tile in a first kernel call, and in a second call
  accumulates the product over the two halves of the contracted axis in a buffer it keeps between grid points, adds
  the bias at the second half and writes the tile back, the last column tile clipped to the array.  The two agree
  because a sum over 4096 terms is the sum of its halves, and inside the original 11008 columns padding changes
  nothing; no finiteness of the inputs is used.

  The three frames: each kernel program's run (both float instances, one proof text generic in the instance) with
  its result dropped, and the reference's generated run with its result dropped.  The idealization rewrote nothing,
  so what it preserves is trivial.
-/
import proofs.«423540_j24867860644059_3_alg».proof.Defs
import proofs.«423540_j24867860644059_3_alg».proof.Proof.Gen.Kernel
import proofs.«423540_j24867860644059_3_alg».proof.Proof.Gen.KernelIdeal
import proofs.«423540_j24867860644059_3_alg».proof.Proof.Gen.ReferenceIdeal
import proofs.«423540_j24867860644059_3_alg».proof.Proof.Gen.Pre_finite_inputs
import proofs.«423540_j24867860644059_3_alg».proof.Proof.Gen.ReferenceIdeal.Run
import proofs.«423540_j24867860644059_3_alg».proof.Proof.KLaunch
import proofs.«423540_j24867860644059_3_alg».proof.Proof.Launch
import proofs.«423540_j24867860644059_3_alg».proof.Proof.Bridge
import proofs.«423540_j24867860644059_3_alg».proof.Proof.RefValue

noncomputable section

namespace Cert.Proof

open Idealize.ShloMosaic Idealize.ShloMosaic.TcCoe Idealize.SL.Sem

/-- The word-level kernel program runs and leaves its arguments as launched. -/
theorem frame_k : @Cert.frame_Kernel Cert.Kernel.Gen.facts Cert.Pre_finite_inputs.Gen.facts := fun m ρ _ =>
  (θ_run Cert.Kernel.defs _ _).mono (fun _ h c => (h c).2) (Cert.Kernel.Run.run_main (F := Bits) m ρ)

/-- The idealized kernel program runs and leaves its arguments as launched. -/
theorem frame_ki : @Cert.frame_KernelIdeal Cert.KernelIdeal.Gen.facts Cert.Pre_finite_inputs.Gen.facts := fun m ρ _ =>
  (θ_run Cert.KernelIdeal.defs _ _).mono (fun _ h c => (h c).2) (Cert.KernelIdeal.Run.run_main (F := Ideal) m ρ)

/-- The reference runs and leaves its arguments as launched. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The kernel program's result buffer ends at the specification of its arguments. -/
theorem result_is_G (m : (ℓ : Loc Cert.KernelIdeal.nD Cert.KernelIdeal.τ Cert.KernelIdeal.sig) → Buf (Elt Ideal) ℓ) (c : Dev Cert.KernelIdeal.nD) :
    Cert.KernelIdeal.Run.result (F := Ideal) m c
      = Cert.Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) :=
  (Cert.KernelIdeal.Run.result_eq (F := Ideal) m c).trans
    (Cert.KernelIdeal.Bridge.result_eq_G m c (Cert.KernelIdeal.Run.Vmid (F := Ideal) m)
      (Cert.KernelIdeal.Run.Vmid_of_ne m c Cert.KernelIdeal.main_v6 (by decide))
      (Cert.KernelIdeal.Run.Vmid_of_ne m c Cert.KernelIdeal.main_v4 (by decide))
      (Cert.KernelIdeal.Run.Vmid_v7 m c))

/-- From memories that agree on the arguments, both idealized programs run, and end with the same result: the
    specification of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Run.result (F := Ideal) m c, Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.RefValue.ref_eq _ _ _ _ _).trans (result_is_G m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
